-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v131)) (v1 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_v142) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S64 .f32) (main_arg14 : FVec F S64 .f32) (main_arg15 : FVec F S64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_v63 main_v67

def fn_part2 {F : FTy → Type} [FloatOps F] (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S5000x64 : Shape := ⟨2, ![5000, 64]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S5000x1 : Shape := ⟨2, ![5000, 1]⟩
abbrev S64x1 : Shape := ⟨2, ![64, 1]⟩

abbrev nBuf : Space → Nat
  | .hbm => 193
  | .vmem => 55
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S1x1200000, .i32⟩
  | 18 => ⟨S1200000, .i32⟩
  | 19 => ⟨S1x1200000, .i32⟩
  | 20 => ⟨S1200000, .i32⟩
  | 21 => ⟨S100000x64, .f32⟩
  | 22 => ⟨S_, .f32⟩
  | 23 => ⟨S1200000, .f32⟩
  | 24 => ⟨S_, .f32⟩
  | 25 => ⟨S100000, .f32⟩
  | 26 => ⟨S1200000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000, .f32⟩
  | 41 => ⟨S_, .i32⟩
  | 42 => ⟨S1200000, .i32⟩
  | 43 => ⟨S1200000, .i1⟩
  | 44 => ⟨S_, .i32⟩
  | 45 => ⟨S1200000, .i32⟩
  | 46 => ⟨S1200000, .i32⟩
  | 47 => ⟨S1200000, .i32⟩
  | 48 => ⟨S1200000x1, .i32⟩
  | 49 => ⟨S1200000, .f32⟩
  | 50 => ⟨S1200000, .f32⟩
  | 51 => ⟨S1200000x1, .f32⟩
  | 52 => ⟨S_, .i32⟩
  | 53 => ⟨S1200000, .i32⟩
  | 54 => ⟨S1200000, .i1⟩
  | 55 => ⟨S_, .i32⟩
  | 56 => ⟨S1200000, .i32⟩
  | 57 => ⟨S1200000, .i32⟩
  | 58 => ⟨S1200000, .i32⟩
  | 59 => ⟨S1200000x1, .i32⟩
  | 60 => ⟨S1200000x64, .f32⟩
  | 61 => ⟨S1200000x64, .f32⟩
  | 62 => ⟨S1200000x64, .f32⟩
  | 63 => ⟨S_, .f32⟩
  | 64 => ⟨S100000x64, .f32⟩
  | 65 => ⟨S1200000x1, .i32⟩
  | 66 => ⟨S100000x64, .f32⟩
  | 67 => ⟨S100000, .f32⟩
  | 68 => ⟨S100000x1, .f32⟩
  | 69 => ⟨S1x64, .f32⟩
  | 70 => ⟨S1x64, .f32⟩
  | 71 => ⟨S1x64, .f32⟩
  | 72 => ⟨S1x64, .f32⟩
  | 73 => ⟨S1x64, .f32⟩
  | 74 => ⟨S100000x64, .f32⟩
  | 75 => ⟨S100000x64, .f32⟩
  | 76 => ⟨S_, .f32⟩
  | 77 => ⟨S1200000, .f32⟩
  | 78 => ⟨S_, .f32⟩
  | 79 => ⟨S100000, .f32⟩
  | 80 => ⟨S1200000x1, .i32⟩
  | 81 => ⟨S100000, .f32⟩
  | 82 => ⟨S_, .f32⟩
  | 83 => ⟨S100000, .f32⟩
  | 84 => ⟨S100000, .f32⟩
  | 85 => ⟨S100000, .f32⟩
  | 86 => ⟨S_, .i32⟩
  | 87 => ⟨S1200000, .i32⟩
  | 88 => ⟨S1200000, .i1⟩
  | 89 => ⟨S_, .i32⟩
  | 90 => ⟨S1200000, .i32⟩
  | 91 => ⟨S1200000, .i32⟩
  | 92 => ⟨S1200000, .i32⟩
  | 93 => ⟨S1200000x1, .i32⟩
  | 94 => ⟨S1200000, .f32⟩
  | 95 => ⟨S_, .i32⟩
  | 96 => ⟨S1200000, .i32⟩
  | 97 => ⟨S1200000, .i1⟩
  | 98 => ⟨S_, .i32⟩
  | 99 => ⟨S1200000, .i32⟩
  | 100 => ⟨S1200000, .i32⟩
  | 101 => ⟨S1200000, .i32⟩
  | 102 => ⟨S1200000x1, .i32⟩
  | 103 => ⟨S1200000, .f32⟩
  | 104 => ⟨S1200000, .f32⟩
  | 105 => ⟨S1200000x1, .f32⟩
  | 106 => ⟨S_, .i32⟩
  | 107 => ⟨S1200000, .i32⟩
  | 108 => ⟨S1200000, .i1⟩
  | 109 => ⟨S_, .i32⟩
  | 110 => ⟨S1200000, .i32⟩
  | 111 => ⟨S1200000, .i32⟩
  | 112 => ⟨S1200000, .i32⟩
  | 113 => ⟨S1200000x1, .i32⟩
  | 114 => ⟨S1200000x64, .f32⟩
  | 115 => ⟨S1200000x64, .f32⟩
  | 116 => ⟨S1200000x64, .f32⟩
  | 117 => ⟨S_, .f32⟩
  | 118 => ⟨S100000x64, .f32⟩
  | 119 => ⟨S1200000x1, .i32⟩
  | 120 => ⟨S100000x64, .f32⟩
  | 121 => ⟨S100000, .f32⟩
  | 122 => ⟨S100000x1, .f32⟩
  | 123 => ⟨S1x64, .f32⟩
  | 124 => ⟨S1x64, .f32⟩
  | 125 => ⟨S1x64, .f32⟩
  | 126 => ⟨S1x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S1200000, .f32⟩
  | 4 => ⟨S_, .f32⟩
  | 5 => ⟨S100000, .f32⟩
  | 6 => ⟨S1200000x1, .i32⟩
  | 7 => ⟨S100000, .f32⟩
  | 8 => ⟨S_, .f32⟩
  | 9 => ⟨S100000, .f32⟩
  | 10 => ⟨S100000, .f32⟩
  | 11 => ⟨S100000, .f32⟩
  | 12 => ⟨S_, .i32⟩
  | 13 => ⟨S1200000, .i32⟩
  | 14 => ⟨S1200000, .i1⟩
  | 15 => ⟨S_, .i32⟩
  | 16 => ⟨S1200000, .i32⟩
  | 17 => ⟨S1200000, .i32⟩
  | 18 => ⟨S1200000, .i32⟩
  | 19 => ⟨S1200000x1, .i32⟩
  | 20 => ⟨S1200000, .f32⟩
  | 21 => ⟨S_, .i32⟩
  | 22 => ⟨S1200000, .i32⟩
  | 23 => ⟨S1200000, .i1⟩
  | 24 => ⟨S_, .i32⟩
  | 25 => ⟨S1200000, .i32⟩
  | 26 => ⟨S1200000, .i32⟩
  | 27 => ⟨S1200000, .i32⟩
  | 28 => ⟨S1200000x1, .i32⟩
  | 29 => ⟨S1200000, .f32⟩
  | 30 => ⟨S1200000, .f32⟩
  | 31 => ⟨S1200000x1, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000x64, .f32⟩
  | 41 => ⟨S1200000x64, .f32⟩
  | 42 => ⟨S1200000x64, .f32⟩
  | 43 => ⟨S_, .f32⟩
  | 44 => ⟨S100000x64, .f32⟩
  | 45 => ⟨S1200000x1, .i32⟩
  | 46 => ⟨S100000x64, .f32⟩
  | 47 => ⟨S100000, .f32⟩
  | 48 => ⟨S100000x1, .f32⟩
  | 49 => ⟨S1x64, .f32⟩
  | 50 => ⟨S100000x64, .f32⟩
  | 51 => ⟨S100000x1, .i32⟩
  | 52 => ⟨S64x64, .f32⟩
  | 53 => ⟨S_, .f32⟩
  | 54 => ⟨S100000, .f32⟩
  | 55 => ⟨S_, .f32⟩
  | 56 => ⟨S64, .f32⟩
  | 57 => ⟨S100000x1, .i32⟩
  | 58 => ⟨S64, .f32⟩
  | 59 => ⟨S_, .f32⟩
  | 60 => ⟨S64, .f32⟩
  | 61 => ⟨S64, .f32⟩
  | 62 => ⟨S64x1, .f32⟩
  | 63 => ⟨S64x64, .f32⟩
  | 64 => ⟨S64x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x1, .f32⟩
  | .local _ .vmem, ⟨46, _⟩ => ⟨S5000x1, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x1, .i32⟩
  | .local _ .vmem, ⟨53, _⟩ => ⟨S5000x1, .i32⟩
  | .local _ .vmem, ⟨54, _⟩ => ⟨S64x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_15 : Ref sig .tc := ⟨.hbm, 106, rfl⟩
abbrev main_v72 : Ref sig .tc := ⟨.hbm, 107, rfl⟩
abbrev main_v73 : Ref sig .tc := ⟨.hbm, 108, rfl⟩
abbrev main_c_16 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_17 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_18 : Ref sig .tc := ⟨.hbm, 130, rfl⟩
abbrev main_v93 : Ref sig .tc := ⟨.hbm, 131, rfl⟩
abbrev main_cst_19 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_20 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_21 : Ref sig .tc := ⟨.hbm, 140, rfl⟩
abbrev main_v100 : Ref sig .tc := ⟨.hbm, 141, rfl⟩
abbrev main_v101 : Ref sig .tc := ⟨.hbm, 142, rfl⟩
abbrev main_c_22 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_c_23 : Ref sig .tc := ⟨.hbm, 149, rfl⟩
abbrev main_v107 : Ref sig .tc := ⟨.hbm, 150, rfl⟩
abbrev main_v108 : Ref sig .tc := ⟨.hbm, 151, rfl⟩
abbrev main_c_24 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_c_25 : Ref sig .tc := ⟨.hbm, 160, rfl⟩
abbrev main_v116 : Ref sig .tc := ⟨.hbm, 161, rfl⟩
abbrev main_v117 : Ref sig .tc := ⟨.hbm, 162, rfl⟩
abbrev main_c_26 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_27 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_28 : Ref sig .tc := ⟨.hbm, 181, rfl⟩
abbrev main_v134 : Ref sig .tc := ⟨.hbm, 182, rfl⟩
abbrev main_cst_29 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_30 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  iota_S5000x64_d1_w32 : S5000x64.Iotas .tc 32 [1]
  natLt_1_32 : 1 < 32
  shapeCasts_S64x64_S64x64 : S64x64.ShapeCasts S64x64
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S5000x64_S64x64_S5000x64_1_0_0_1_n_n_wf : DotDims.WF S5000x64 S64x64 S5000x64 [1] [0] [0] [1] [] []
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S5000x64_S64x64_0_0_1_1_n_n_wf : DotDims.WF S5000x64 S5000x64 S64x64 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x64.size a ≤ S100000x64.size a
  hwx3_8 : ∀ i : grid3.Coords, EltTy.bits .f32 = 32 ∨ (Rect.block (s := S100000x64) S5000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v89) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v90) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v91) S5000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v91) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v127) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v129) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v130) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v131) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v131) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v132) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v133) S64x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S64x1 : Shape := ⟨2, ![64, 1]⟩

abbrev nBuf : Space → Nat
  | .hbm => 237
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S1x1200000, .i32⟩
  | 18 => ⟨S1200000, .i32⟩
  | 19 => ⟨S1x1200000, .i32⟩
  | 20 => ⟨S1200000, .i32⟩
  | 21 => ⟨S100000x64, .f32⟩
  | 22 => ⟨S_, .f32⟩
  | 23 => ⟨S1200000, .f32⟩
  | 24 => ⟨S_, .f32⟩
  | 25 => ⟨S100000, .f32⟩
  | 26 => ⟨S1200000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000, .f32⟩
  | 41 => ⟨S_, .i32⟩
  | 42 => ⟨S1200000, .i32⟩
  | 43 => ⟨S1200000, .i1⟩
  | 44 => ⟨S_, .i32⟩
  | 45 => ⟨S1200000, .i32⟩
  | 46 => ⟨S1200000, .i32⟩
  | 47 => ⟨S1200000, .i32⟩
  | 48 => ⟨S1200000x1, .i32⟩
  | 49 => ⟨S1200000, .f32⟩
  | 50 => ⟨S1200000, .f32⟩
  | 51 => ⟨S1200000x1, .f32⟩
  | 52 => ⟨S_, .i32⟩
  | 53 => ⟨S1200000, .i32⟩
  | 54 => ⟨S1200000, .i1⟩
  | 55 => ⟨S_, .i32⟩
  | 56 => ⟨S1200000, .i32⟩
  | 57 => ⟨S1200000, .i32⟩
  | 58 => ⟨S1200000, .i32⟩
  | 59 => ⟨S1200000x1, .i32⟩
  | 60 => ⟨S1200000x64, .f32⟩
  | 61 => ⟨S1200000x64, .f32⟩
  | 62 => ⟨S1200000x64, .f32⟩
  | 63 => ⟨S_, .f32⟩
  | 64 => ⟨S100000x64, .f32⟩
  | 65 => ⟨S1200000x1, .i32⟩
  | 66 => ⟨S100000x64, .f32⟩
  | 67 => ⟨S100000, .f32⟩
  | 68 => ⟨S100000x1, .f32⟩
  | 69 => ⟨S100000x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x64, .f32⟩
  | 95 => ⟨S_, .f32⟩
  | 96 => ⟨S1200000, .f32⟩
  | 97 => ⟨S_, .f32⟩
  | 98 => ⟨S100000, .f32⟩
  | 99 => ⟨S1200000x1, .i32⟩
  | 100 => ⟨S100000, .f32⟩
  | 101 => ⟨S_, .f32⟩
  | 102 => ⟨S100000, .f32⟩
  | 103 => ⟨S100000, .f32⟩
  | 104 => ⟨S100000, .f32⟩
  | 105 => ⟨S_, .i32⟩
  | 106 => ⟨S1200000, .i32⟩
  | 107 => ⟨S1200000, .i1⟩
  | 108 => ⟨S_, .i32⟩
  | 109 => ⟨S1200000, .i32⟩
  | 110 => ⟨S1200000, .i32⟩
  | 111 => ⟨S1200000, .i32⟩
  | 112 => ⟨S1200000x1, .i32⟩
  | 113 => ⟨S1200000, .f32⟩
  | 114 => ⟨S_, .i32⟩
  | 115 => ⟨S1200000, .i32⟩
  | 116 => ⟨S1200000, .i1⟩
  | 117 => ⟨S_, .i32⟩
  | 118 => ⟨S1200000, .i32⟩
  | 119 => ⟨S1200000, .i32⟩
  | 120 => ⟨S1200000, .i32⟩
  | 121 => ⟨S1200000x1, .i32⟩
  | 122 => ⟨S1200000, .f32⟩
  | 123 => ⟨S1200000, .f32⟩
  | 124 => ⟨S1200000x1, .f32⟩
  | 125 => ⟨S_, .i32⟩
  | 126 => ⟨S1200000, .i32⟩
  | 127 => ⟨S1200000, .i1⟩
  | _ => ⟨S100000x64, .f32⟩

abbrev hbmTy0_1 (i : Nat) : BufTy := match i % 128 with
  | 0 => ⟨S_, .i32⟩
  | 1 => ⟨S1200000, .i32⟩
  | 2 => ⟨S1200000, .i32⟩
  | 3 => ⟨S1200000, .i32⟩
  | 4 => ⟨S1200000x1, .i32⟩
  | 5 => ⟨S1200000x64, .f32⟩
  | 6 => ⟨S1200000x64, .f32⟩
  | 7 => ⟨S1200000x64, .f32⟩
  | 8 => ⟨S_, .f32⟩
  | 9 => ⟨S100000x64, .f32⟩
  | 10 => ⟨S1200000x1, .i32⟩
  | 11 => ⟨S100000x64, .f32⟩
  | 12 => ⟨S100000, .f32⟩
  | 13 => ⟨S100000x1, .f32⟩
  | 14 => ⟨S100000x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S64, .f32⟩
  | 25 => ⟨S64, .f32⟩
  | 26 => ⟨S64, .f32⟩
  | 27 => ⟨S1x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S_, .f32⟩
  | 41 => ⟨S1200000, .f32⟩
  | 42 => ⟨S_, .f32⟩
  | 43 => ⟨S100000, .f32⟩
  | 44 => ⟨S1200000x1, .i32⟩
  | 45 => ⟨S100000, .f32⟩
  | 46 => ⟨S_, .f32⟩
  | 47 => ⟨S100000, .f32⟩
  | 48 => ⟨S100000, .f32⟩
  | 49 => ⟨S100000, .f32⟩
  | 50 => ⟨S_, .i32⟩
  | 51 => ⟨S1200000, .i32⟩
  | 52 => ⟨S1200000, .i1⟩
  | 53 => ⟨S_, .i32⟩
  | 54 => ⟨S1200000, .i32⟩
  | 55 => ⟨S1200000, .i32⟩
  | 56 => ⟨S1200000, .i32⟩
  | 57 => ⟨S1200000x1, .i32⟩
  | 58 => ⟨S1200000, .f32⟩
  | 59 => ⟨S_, .i32⟩
  | 60 => ⟨S1200000, .i32⟩
  | 61 => ⟨S1200000, .i1⟩
  | 62 => ⟨S_, .i32⟩
  | 63 => ⟨S1200000, .i32⟩
  | 64 => ⟨S1200000, .i32⟩
  | 65 => ⟨S1200000, .i32⟩
  | 66 => ⟨S1200000x1, .i32⟩
  | 67 => ⟨S1200000, .f32⟩
  | 68 => ⟨S1200000, .f32⟩
  | 69 => ⟨S1200000x1, .f32⟩
  | 70 => ⟨S_, .i32⟩
  | 71 => ⟨S1200000, .i32⟩
  | 72 => ⟨S1200000, .i1⟩
  | 73 => ⟨S_, .i32⟩
  | 74 => ⟨S1200000, .i32⟩
  | 75 => ⟨S1200000, .i32⟩
  | 76 => ⟨S1200000, .i32⟩
  | 77 => ⟨S1200000x1, .i32⟩
  | 78 => ⟨S1200000x64, .f32⟩
  | 79 => ⟨S1200000x64, .f32⟩
  | 80 => ⟨S1200000x64, .f32⟩
  | 81 => ⟨S_, .f32⟩
  | 82 => ⟨S100000x64, .f32⟩
  | 83 => ⟨S1200000x1, .i32⟩
  | 84 => ⟨S100000x64, .f32⟩
  | 85 => ⟨S100000, .f32⟩
  | 86 => ⟨S100000x1, .f32⟩
  | 87 => ⟨S100000x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000, .f32⟩
  | 95 => ⟨S_, .f32⟩
  | 96 => ⟨S64, .f32⟩
  | 97 => ⟨S100000x1, .i32⟩
  | 98 => ⟨S64, .f32⟩
  | 99 => ⟨S_, .f32⟩
  | 100 => ⟨S64x64, .f32⟩
  | 101 => ⟨S100000x1, .i32⟩
  | 102 => ⟨S64x64, .f32⟩
  | 103 => ⟨S_, .f32⟩
  | 104 => ⟨S64, .f32⟩
  | 105 => ⟨S64, .f32⟩
  | 106 => ⟨S64x1, .f32⟩
  | 107 => ⟨S64x64, .f32⟩
  | 108 => ⟨S64x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call0_cst : Ref sig .tc := ⟨.hbm, 91, rfl⟩
abbrev main_call0_v0 : Ref sig .tc := ⟨.hbm, 92, rfl⟩
abbrev main_v63 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_cst_10 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_12 : Ref sig .tc := ⟨.hbm, 105, rfl⟩
abbrev main_v72 : Ref sig .tc := ⟨.hbm, 106, rfl⟩
abbrev main_v73 : Ref sig .tc := ⟨.hbm, 107, rfl⟩
abbrev main_c_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_14 : Ref sig .tc := ⟨.hbm, 114, rfl⟩
abbrev main_v79 : Ref sig .tc := ⟨.hbm, 115, rfl⟩
abbrev main_v80 : Ref sig .tc := ⟨.hbm, 116, rfl⟩
abbrev main_c_15 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_16 : Ref sig .tc := ⟨.hbm, 125, rfl⟩
abbrev main_v88 : Ref sig .tc := ⟨.hbm, 126, rfl⟩
abbrev main_v89 : Ref sig .tc := ⟨.hbm, 127, rfl⟩
abbrev main_c_17 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_19 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_call1_cst : Ref sig .tc := ⟨.hbm, 164, rfl⟩
abbrev main_call1_v0 : Ref sig .tc := ⟨.hbm, 165, rfl⟩
abbrev main_v123 : Ref sig .tc := ⟨.hbm, 166, rfl⟩
abbrev main_v124 : Ref sig .tc := ⟨.hbm, 167, rfl⟩
abbrev main_cst_20 : Ref sig .tc := ⟨.hbm, 168, rfl⟩
abbrev main_v125 : Ref sig .tc := ⟨.hbm, 169, rfl⟩
abbrev main_cst_21 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_22 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_c_23 : Ref sig .tc := ⟨.hbm, 178, rfl⟩
abbrev main_v132 : Ref sig .tc := ⟨.hbm, 179, rfl⟩
abbrev main_v133 : Ref sig .tc := ⟨.hbm, 180, rfl⟩
abbrev main_c_24 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_c_25 : Ref sig .tc := ⟨.hbm, 187, rfl⟩
abbrev main_v139 : Ref sig .tc := ⟨.hbm, 188, rfl⟩
abbrev main_v140 : Ref sig .tc := ⟨.hbm, 189, rfl⟩
abbrev main_c_26 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_c_27 : Ref sig .tc := ⟨.hbm, 198, rfl⟩
abbrev main_v148 : Ref sig .tc := ⟨.hbm, 199, rfl⟩
abbrev main_v149 : Ref sig .tc := ⟨.hbm, 200, rfl⟩
abbrev main_c_28 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_29 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_cst_30 : Ref sig .tc := ⟨.hbm, 221, rfl⟩
abbrev main_v168 : Ref sig .tc := ⟨.hbm, 222, rfl⟩
abbrev main_cst_31 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_cst_32 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_cst_33 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S100000x64_S64x64_S100000x64_1_0_0_1_n_n_wf : DotDims.WF S100000x64 S64x64 S100000x64 [1] [0] [0] [1] [] []
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf

class Facts : Prop extends Facts₀ where

variable [Facts]
-- ==== Proof.Spec.lean ====
/-
  The graph-convolution network, written once as whole-array functions over the extended reals.

  A layer maps node features x : [100000, 64] to
      out = agg + dis2 * h + b,     h = x W,
  where agg (the normalised sum of the neighbours' rows of h) and dis2 (the squared inverse square root of the
  degree, one value per node) are computed from h and the edge list by the same gather / scatter chain in both
  programs; the first two layers follow it by a batch normalisation at running statistics and a rectifier,
      max ((out - rm) * rsqrt (rv + eps) * g + be, 0).
  The readout sums the last layer's rows per graph: entry (γ, d) is the sum over the nodes n whose graph id is γ of
  h3 (n, d).  Each function below states one of these steps index by index; both programs are shown to compute them.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Node features: one row per node, 64 channels. -/
abbrev SNxD : Shape := ⟨2, ![100000, 64]⟩
/-- A layer's weights, and the per-graph readout. -/
abbrev SDxD : Shape := ⟨2, ![64, 64]⟩
/-- One value per node, as a column. -/
abbrev SNx1 : Shape := ⟨2, ![100000, 1]⟩
/-- One value per channel, as a row. -/
abbrev S1xD : Shape := ⟨2, ![1, 64]⟩

/-- The node of an entry of a feature array. -/
def row (i : SNxD.Idx) : Fin 100000 := i 0
/-- The channel of an entry of a feature array. -/
def col (i : SNxD.Idx) : Fin 64 := i 1

@[simp] theorem row_ix2 (p : Fin 100000) (q : Fin 64) : row (ix2 p q) = p := rfl
@[simp] theorem col_ix2 (p : Fin 100000) (q : Fin 64) : col (ix2 p q) = q := rfl

/-- The dense transform h = x W: entry (p, q) is the sum over k of x (p, k) * W (k, q). -/
def matMul (x : SNxD.Idx → EReal) (W : SDxD.Idx → EReal) : SNxD.Idx → EReal :=
  fun i => ∑ k : Fin 64, x (ix2 (row i) k) * W (ix2 k (col i))

/-- The float32 word of the batch normalisation's epsilon, at its exact binary value. -/
def eps : EReal := Ideal.ofBits .f32 0x3727C5AC#32

/-- A layer's output before normalisation: the neighbours' sum, the node's own row scaled by its squared
    inverse-root degree, and the bias. -/
def conv (agg h : SNxD.Idx → EReal) (d2 : SNx1.Idx → EReal) (b : S1xD.Idx → EReal) : SNxD.Idx → EReal :=
  fun i => agg i + d2 (ix2 (row i) 0) * h i + b (ix2 0 (col i))

/-- A normalised, rectified layer: batch normalisation at running mean rm and variance rv, scale g, shift be,
    then the maximum with zero. -/
def convBnRelu (agg h : SNxD.Idx → EReal) (d2 : SNx1.Idx → EReal) (b g be rm rv : S1xD.Idx → EReal) :
    SNxD.Idx → EReal :=
  fun i => max ((conv agg h d2 b i - rm (ix2 0 (col i))) * Ideal.rsqrt (rv (ix2 0 (col i)) + eps)
      * g (ix2 0 (col i)) + be (ix2 0 (col i))) (Ideal.ofBits .f32 0x00000000#32)

/-- Whether node id word w names graph γ, as the real 1 or 0. -/
def sel (w : BitVec 32) (γ : Fin 64) : EReal := if w = BitVec.ofNat 32 γ.val then 1 else 0

/-- The readout: entry (γ, d) is the sum over the nodes of (1 if the node's graph id is γ, else 0) times the
    node's channel d. -/
def poolSum (h : SNxD.Idx → EReal) (gid : SNx1.Idx → BitVec 32) : SDxD.Idx → EReal :=
  fun j => ∑ n : Fin 100000, sel (gid (ix2 n 0)) (j 0) * h (ix2 n (j 1))

end Cert.Spec

end
-- ==== Proof.RegDense0.lean ====
/-
  Region 0 of the network: the first layer's dense transform h = x W.

  The node features x : [100000, 64] are cut into twenty blocks of 5000 rows; the weights W : [64, 64] are read whole
  at every block.  At block t the region computes, for each row p of the block and each channel q,
      sum over k of x (5000 t + p, k) * W (k, q)
  (the change of float format applied to the two factors is the identity on the extended reals, and the product is
  accumulated from zero), and writes it to rows 5000 t ... 5000 t + 4999 of the output.  Row r of the output is
  therefore written by block r / 5000, the twenty blocks cover every row, and the output array ends holding matMul x W.
-/
import proofs.«402829_j82592221102294_2_alg».proof.Proof.Gen.KernelIdeal.Frame
import proofs.«402829_j82592221102294_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product at one entry -/

/-- In the product x W the left factor's row is the output's row. -/
theorem dense0_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left factor's column is the summation index. -/
theorem dense0_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right factor's row is the summation index. -/
theorem dense0_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right factor's column is the output's column. -/
theorem dense0_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- One block's product at an entry: the sum over k of x (p, k) * W (k, q).  The change of format of the two
    factors is the identity on the extended reals, and the accumulator is zero. -/
theorem dense0_block_product (x : Vec Ideal S5000x64 .f32) (W : Vec Ideal S64x64 .f32) (p : Fin 5000) (q : Fin 64) :
    k0_pay1 (F := Ideal) x W (ix2 p q) = ∑ k : Fin 64, x (ix2 p k) * W (ix2 k q) := by
  unfold k0_pay1
  refine (Ideal.matmul_constant_zero_apply dot_S5000x64_S64x64_S5000x64_1_0_0_1_n_n none (truncf .bf16 x bitsLt_bf16_f32) (truncf .bf16 W bitsLt_bf16_f32) (ix2 p q)).trans ?_
  refine (Equiv.sum_comp (ValueIdx.contrEquiv1 dot_S5000x64_S64x64_S5000x64_1_0_0_1_n_n 64 rfl rfl).symm _).symm.trans ?_
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact dense0_lhs_row _ _
    | ⟨1, _⟩ => exact (dense0_lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (dense0_rhs_row _ _).trans hk
    | ⟨1, _⟩ => exact dense0_rhs_col _ _)
  show x (dot_S5000x64_S64x64_S5000x64_1_0_0_1_n_n.lhsIdx (ix2 p q) ((ValueIdx.contrEquiv1 dot_S5000x64_S64x64_S5000x64_1_0_0_1_n_n 64 rfl rfl).symm k)) * W (dot_S5000x64_S64x64_S5000x64_1_0_0_1_n_n.rhsIdx (ix2 p q) ((ValueIdx.contrEquiv1 dot_S5000x64_S64x64_S5000x64_1_0_0_1_n_n 64 rfl rfl).symm k)) = _
  rw [el, er]

/-! ## The blocks in their arrays -/

/-- Every block sits at offset zero in its staging buffer. -/
theorem dense0_zero_offsets : (![0, 0] : Fin 2 → Nat) = fun _ => 0 := funext fun a => by fin_cases a <;> rfl

/-- Where block t lies: the features' and the output's block t is the t-th block of 5000 rows, all 64 channels; the
    weights' block is always the whole array. -/
theorem dense0_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the features' block t is entry (5000 t + p, k) of the features. -/
theorem dense0_x_block (c : Dev nD) (t : Fin cfg0.N) (p : Fin 5000) (k : Fin 64) (r : Fin 100000)
    (hr : r.val = t.val * 5000 + p.val) :
    (iblk0 V c 0 t : Vec Ideal S5000x64 .f32) (ix2 p k) = (V c main_arg0 : SNxD.Idx → EReal) (ix2 r k) := by
  obtain ⟨e00, e01, -, -, -, -⟩ := dense0_index_maps t
  unfold iblk0
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- The weights' block is the weights. -/
theorem dense0_w_block (c : Dev nD) (t : Fin cfg0.N) (k q : Fin 64) :
    (iblk0 V c 1 t : Vec Ideal S64x64 .f32) (ix2 k q) = (V c main_arg3 : SDxD.Idx → EReal) (ix2 k q) := by
  obtain ⟨-, -, e10, e11, -, -⟩ := dense0_index_maps t
  unfold iblk0
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-! ## What a block writes, and the whole array -/

/-- What block t writes back is block t of matMul x W. -/
theorem flushed_dense0 (c : Dev nD) (t : Fin cfg0.N) :
    (dat0 (F := Ideal) V c).flushed 2 t = ((cfg0.win 2).blk t).view.read (Elt Ideal) (matMul (V c main_arg0) (V c main_arg3)) := by
  show (cfg0.win 2).cut (grid0.coords t) ((dat0 V c).after 2 t) = _
  rw [after0_2]; unfold out0_2
  rw [View.canon_unit_zero dense0_zero_offsets]
  simp only [View.ld_unit_zero (S := S5000x64) dense0_zero_offsets, View.ld_unit_zero (S := S64x64) dense0_zero_offsets]
  funext j
  have hp : (j 0).val < 5000 := (j 0).isLt
  have hq : (j 1).val < 64 := (j 1).isLt
  obtain ⟨-, -, -, -, e20, e21⟩ := dense0_index_maps t
  have hx : win0_2.xinj (grid0.coords t) j = ix2 (⟨(j 0).val, hp⟩ : Fin 5000) (⟨(j 1).val, hq⟩ : Fin 64) :=
    funext fun a => by match a with | ⟨0, _⟩ => rfl | ⟨1, _⟩ => rfl
  show k0_pay1 (iblk0 V c 0 t) (iblk0 V c 1 t) (win0_2.xinj (grid0.coords t) j)
    = matMul (V c main_arg0) (V c main_arg3) (((cfg0.win 2).blk t).view.emb j)
  have hrow : (row (((cfg0.win 2).blk t).view.emb j)).val = t.val * 5000 + (j 0).val := by
    show win0_2.index t (0 : Fin 2) * 5000 + 1 * (j 0).val = _; omega
  have hcol : col (((cfg0.win 2).blk t).view.emb j) = (⟨(j 1).val, hq⟩ : Fin 64) :=
    Fin.ext (by show win0_2.index t (1 : Fin 2) * 64 + 1 * (j 1).val = (j 1).val; omega)
  refine (congrArg (k0_pay1 (iblk0 V c 0 t) (iblk0 V c 1 t)) hx).trans ?_
  refine (dense0_block_product (iblk0 V c 0 t) (iblk0 V c 1 t) ⟨(j 0).val, hp⟩ ⟨(j 1).val, hq⟩).trans ?_
  unfold matMul
  refine Finset.sum_congr rfl fun k _ => ?_
  rw [hcol]
  exact congrArg₂ (· * ·)
    (dense0_x_block V c t ⟨(j 0).val, hp⟩ k (row (((cfg0.win 2).blk t).view.emb j)) hrow)
    (dense0_w_block V c t k ⟨(j 1).val, hq⟩)

/-- Row r of the output lies in block r / 5000. -/
theorem dense0_cover (i : SNxD.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, e20, e21⟩ := dense0_index_maps t
  refine ⟨t, flush0_2 t, ?_⟩
  show i ∈ ((View.whole main_v4).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The output array after the twenty blocks is matMul x W. -/
theorem dense0 (c : Dev nD) :
    (dat0 (F := Ideal) V c).arrAt 2 cfg0.N = matMul (V c main_arg0) (V c main_arg3) :=
  (dat0 (F := Ideal) V c).arrAt_eq_of_cover 2 _ (fun t _ => flushed_dense0 V c t) (fun i => dense0_cover i)

end Cert.KernelIdeal.RegVal

end
-- ==== Proof.RegDense2.lean ====
/-
  Region 2 of the network: the second layer's dense transform h = x W, where x is the first layer's normalised,
  rectified output.

  The features x : [100000, 64] are cut into twenty blocks of 5000 rows; the weights W : [64, 64] are read whole at
  every block.  At block t the region reshapes the block of x to its own shape, which changes nothing, and computes,
  for each row p of the block and each channel q,
      sum over k of x (5000 t + p, k) * W (k, q)
  (the change of float format applied to the two factors is the identity on the extended reals, and the product is
  accumulated from zero), and writes it to rows 5000 t ... 5000 t + 4999 of the output.  Row r of the output is
  therefore written by block r / 5000, the twenty blocks cover every row, and the output array ends holding matMul x W.
-/
import proofs.«402829_j82592221102294_2_alg».proof.Proof.Gen.KernelIdeal.Frame
import proofs.«402829_j82592221102294_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product at one entry -/

/-- In the product x W the left factor's row is the output's row. -/
theorem dense2_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left factor's column is the summation index. -/
theorem dense2_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right factor's row is the summation index. -/
theorem dense2_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right factor's column is the output's column. -/
theorem dense2_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- One block's product at an entry: the sum over k of x (p, k) * W (k, q).  The reshape of the block to its own
    shape and the change of format of the two factors are the identity, and the accumulator is zero. -/
theorem dense2_block_product (x : Vec Ideal S5000x64 .f32) (W : Vec Ideal S64x64 .f32) (p : Fin 5000) (q : Fin 64) :
    k2_pay1 (F := Ideal) x W (ix2 p q) = ∑ k : Fin 64, x (ix2 p k) * W (ix2 k q) := by
  unfold k2_pay1
  refine (Ideal.matmul_constant_zero_apply dot_S5000x64_S64x64_S5000x64_1_0_0_1_n_n none (truncf .bf16 (shapeCast S5000x64 x shapeCasts_S5000x64_S5000x64) bitsLt_bf16_f32) (truncf .bf16 W bitsLt_bf16_f32) (ix2 p q)).trans ?_
  refine (Equiv.sum_comp (ValueIdx.contrEquiv1 dot_S5000x64_S64x64_S5000x64_1_0_0_1_n_n 64 rfl rfl).symm _).symm.trans ?_
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact dense2_lhs_row _ _
    | ⟨1, _⟩ => exact (dense2_lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (dense2_rhs_row _ _).trans hk
    | ⟨1, _⟩ => exact dense2_rhs_col _ _)
  show shapeCast S5000x64 x shapeCasts_S5000x64_S5000x64 (dot_S5000x64_S64x64_S5000x64_1_0_0_1_n_n.lhsIdx (ix2 p q) ((ValueIdx.contrEquiv1 dot_S5000x64_S64x64_S5000x64_1_0_0_1_n_n 64 rfl rfl).symm k)) * W (dot_S5000x64_S64x64_S5000x64_1_0_0_1_n_n.rhsIdx (ix2 p q) ((ValueIdx.contrEquiv1 dot_S5000x64_S64x64_S5000x64_1_0_0_1_n_n 64 rfl rfl).symm k)) = _
  rw [shapeCast_self, el, er]

/-! ## The blocks in their arrays -/

/-- Every block sits at offset zero in its staging buffer. -/
theorem dense2_zero_offsets : (![0, 0] : Fin 2 → Nat) = fun _ => 0 := funext fun a => by fin_cases a <;> rfl

/-- Where block t lies: the features' and the output's block t is the t-th block of 5000 rows, all 64 channels; the
    weights' block is always the whole array. -/
theorem dense2_index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the features' block t is entry (5000 t + p, k) of the features. -/
theorem dense2_x_block (c : Dev nD) (t : Fin cfg2.N) (p : Fin 5000) (k : Fin 64) (r : Fin 100000)
    (hr : r.val = t.val * 5000 + p.val) :
    (iblk2 V c 0 t : Vec Ideal S5000x64 .f32) (ix2 p k) = (V c main_v47 : SNxD.Idx → EReal) (ix2 r k) := by
  obtain ⟨e00, e01, -, -, -, -⟩ := dense2_index_maps t
  unfold iblk2
  show V c main_v47 (((cfg2.win 0).blk t).view.emb (ix2 p k)) = V c main_v47 (ix2 r k)
  refine congrArg (V c main_v47) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The weights' block is the weights. -/
theorem dense2_w_block (c : Dev nD) (t : Fin cfg2.N) (k q : Fin 64) :
    (iblk2 V c 1 t : Vec Ideal S64x64 .f32) (ix2 k q) = (V c main_arg5 : SDxD.Idx → EReal) (ix2 k q) := by
  obtain ⟨-, -, e10, e11, -, -⟩ := dense2_index_maps t
  unfold iblk2
  show V c main_arg5 (((cfg2.win 1).blk t).view.emb (ix2 k q)) = V c main_arg5 (ix2 k q)
  refine congrArg (V c main_arg5) (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-! ## What a block writes, and the whole array -/

/-- What block t writes back is block t of matMul x W. -/
theorem flushed_dense2 (c : Dev nD) (t : Fin cfg2.N) :
    (dat2 (F := Ideal) V c).flushed 2 t = ((cfg2.win 2).blk t).view.read (Elt Ideal) (matMul (V c main_v47) (V c main_arg5)) := by
  show (cfg2.win 2).cut (grid2.coords t) ((dat2 V c).after 2 t) = _
  rw [after2_2]; unfold out2_2
  rw [View.canon_unit_zero dense2_zero_offsets]
  simp only [View.ld_unit_zero (S := S5000x64) dense2_zero_offsets, View.ld_unit_zero (S := S64x64) dense2_zero_offsets]
  funext j
  have hp : (j 0).val < 5000 := (j 0).isLt
  have hq : (j 1).val < 64 := (j 1).isLt
  obtain ⟨-, -, -, -, e20, e21⟩ := dense2_index_maps t
  have hx : win2_2.xinj (grid2.coords t) j = ix2 (⟨(j 0).val, hp⟩ : Fin 5000) (⟨(j 1).val, hq⟩ : Fin 64) :=
    funext fun a => by match a with | ⟨0, _⟩ => rfl | ⟨1, _⟩ => rfl
  show k2_pay1 (iblk2 V c 0 t) (iblk2 V c 1 t) (win2_2.xinj (grid2.coords t) j)
    = matMul (V c main_v47) (V c main_arg5) (((cfg2.win 2).blk t).view.emb j)
  have hrow : (row (((cfg2.win 2).blk t).view.emb j)).val = t.val * 5000 + (j 0).val := by
    show win2_2.index t (0 : Fin 2) * 5000 + 1 * (j 0).val = _; omega
  have hcol : col (((cfg2.win 2).blk t).view.emb j) = (⟨(j 1).val, hq⟩ : Fin 64) :=
    Fin.ext (by show win2_2.index t (1 : Fin 2) * 64 + 1 * (j 1).val = (j 1).val; omega)
  refine (congrArg (k2_pay1 (iblk2 V c 0 t) (iblk2 V c 1 t)) hx).trans ?_
  refine (dense2_block_product (iblk2 V c 0 t) (iblk2 V c 1 t) ⟨(j 0).val, hp⟩ ⟨(j 1).val, hq⟩).trans ?_
  unfold matMul
  refine Finset.sum_congr rfl fun k _ => ?_
  rw [hcol]
  exact congrArg₂ (· * ·)
    (dense2_x_block V c t ⟨(j 0).val, hp⟩ k (row (((cfg2.win 2).blk t).view.emb j)) hrow)
    (dense2_w_block V c t k ⟨(j 1).val, hq⟩)

/-- Row r of the output lies in block r / 5000. -/
theorem dense2_cover (i : SNxD.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  obtain ⟨t, ht⟩ : ∃ t : Fin cfg2.N, t.val = (i 0).val / 5000 :=
    ⟨⟨(i 0).val / 5000, by show (i 0).val / 5000 < grid2.N; rw [hN]; omega⟩, rfl⟩
  obtain ⟨-, -, -, -, e20, e21⟩ := dense2_index_maps t
  refine ⟨t, flush2_2 t, ?_⟩
  show i ∈ ((View.whole main_v48).slice (win2_2.rect t)).set
  rw [View.set_slice_whole, Rect.mem_set_unit]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- The output array after the twenty blocks is matMul x W. -/
theorem dense2 (c : Dev nD) :
    (dat2 (F := Ideal) V c).arrAt 2 cfg2.N = matMul (V c main_v47) (V c main_arg5) :=
  (dat2 (F := Ideal) V c).arrAt_eq_of_cover 2 _ (fun t _ => flushed_dense2 V c t) (fun i => dense2_cover i)

end Cert.KernelIdeal.RegVal

end
-- ==== Proof.RegDense4.lean ====
/-
  Region 4 of the network: the third layer's dense transform h = x W, where x is the second layer's normalised,
  rectified output.

  The features x : [100000, 64] are cut into twenty blocks of 5000 rows; the weights W : [64, 64] are read whole at
  every block.  At block t the region reshapes the block of x to its own shape, which changes nothing, and computes,
  for each row p of the block and each channel q,
      sum over k of x (5000 t + p, k) * W (k, q)
  (the change of float format applied to the two factors is the identity on the extended reals, and the product is
  accumulated from zero), and writes it to rows 5000 t ... 5000 t + 4999 of the output.  Row r of the output is
  therefore written by block r / 5000, the twenty blocks cover every row, and the output array ends holding matMul x W.
-/
import proofs.«402829_j82592221102294_2_alg».proof.Proof.Gen.KernelIdeal.Frame
import proofs.«402829_j82592221102294_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product at one entry -/

/-- In the product x W the left factor's row is the output's row. -/
theorem dense4_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left factor's column is the summation index. -/
theorem dense4_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right factor's row is the summation index. -/
theorem dense4_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right factor's column is the output's column. -/
theorem dense4_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- One block's product at an entry: the sum over k of x (p, k) * W (k, q).  The reshape of the block to its own
    shape and the change of format of the two factors are the identity, and the accumulator is zero. -/
theorem dense4_block_product (x : Vec Ideal S5000x64 .f32) (W : Vec Ideal S64x64 .f32) (p : Fin 5000) (q : Fin 64) :
    k4_pay1 (F := Ideal) x W (ix2 p q) = ∑ k : Fin 64, x (ix2 p k) * W (ix2 k q) := by
  unfold k4_pay1
  refine (Ideal.matmul_constant_zero_apply dot_S5000x64_S64x64_S5000x64_1_0_0_1_n_n none (truncf .bf16 (shapeCast S5000x64 x shapeCasts_S5000x64_S5000x64) bitsLt_bf16_f32) (truncf .bf16 W bitsLt_bf16_f32) (ix2 p q)).trans ?_
  refine (Equiv.sum_comp (ValueIdx.contrEquiv1 dot_S5000x64_S64x64_S5000x64_1_0_0_1_n_n 64 rfl rfl).symm _).symm.trans ?_
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact dense4_lhs_row _ _
    | ⟨1, _⟩ => exact (dense4_lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (dense4_rhs_row _ _).trans hk
    | ⟨1, _⟩ => exact dense4_rhs_col _ _)
  show shapeCast S5000x64 x shapeCasts_S5000x64_S5000x64 (dot_S5000x64_S64x64_S5000x64_1_0_0_1_n_n.lhsIdx (ix2 p q) ((ValueIdx.contrEquiv1 dot_S5000x64_S64x64_S5000x64_1_0_0_1_n_n 64 rfl rfl).symm k)) * W (dot_S5000x64_S64x64_S5000x64_1_0_0_1_n_n.rhsIdx (ix2 p q) ((ValueIdx.contrEquiv1 dot_S5000x64_S64x64_S5000x64_1_0_0_1_n_n 64 rfl rfl).symm k)) = _
  rw [shapeCast_self, el, er]

/-! ## The blocks in their arrays -/

/-- Every block sits at offset zero in its staging buffer. -/
theorem dense4_zero_offsets : (![0, 0] : Fin 2 → Nat) = fun _ => 0 := funext fun a => by fin_cases a <;> rfl

/-- Where block t lies: the features' and the output's block t is the t-th block of 5000 rows, all 64 channels; the
    weights' block is always the whole array. -/
theorem dense4_index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (p, k) of the features' block t is entry (5000 t + p, k) of the features. -/
theorem dense4_x_block (c : Dev nD) (t : Fin cfg4.N) (p : Fin 5000) (k : Fin 64) (r : Fin 100000)
    (hr : r.val = t.val * 5000 + p.val) :
    (iblk4 V c 0 t : Vec Ideal S5000x64 .f32) (ix2 p k) = (V c main_v91 : SNxD.Idx → EReal) (ix2 r k) := by
  obtain ⟨e00, e01, -, -, -, -⟩ := dense4_index_maps t
  unfold iblk4
  show V c main_v91 (((cfg4.win 0).blk t).view.emb (ix2 p k)) = V c main_v91 (ix2 r k)
  refine congrArg (V c main_v91) (funext fun a => Fin.ext ?_)
  match a with
  | ⟨0, _⟩ => show win4_0.index t (0 : Fin 2) * 5000 + 1 * p.val = r.val; omega
  | ⟨1, _⟩ => show win4_0.index t (1 : Fin 2) * 64 + 1 * k.val = k.val; omega

/-- The weights' block is the weights. -/
theorem dense4_w_block (c : Dev nD) (t : Fin cfg4.N) (k q : Fin 64) :
    (iblk4 V c 1 t : Vec Ideal S64x64 .f32) (ix2 k q) = (V c main_arg7 : SDxD.Idx → EReal) (ix2 k q) := by
  obtain ⟨-, -, e10, e11, -, -⟩ := dense4_index_maps t
  unfold iblk4
  show V c main_arg7 (((cfg4.win 1).blk t).view.emb (ix2 k q)) = V c main_arg7 (ix2 k q)
  refine congrArg (V c main_arg7) (funext fun a => Fin.ext ?_)
  match a with
  | ⟨0, _⟩ => show win4_1.index t (0 : Fin 2) * 64 + 1 * k.val = k.val; omega
  | ⟨1, _⟩ => show win4_1.index t (1 : Fin 2) * 64 + 1 * q.val = q.val; omega

/-! ## What a block writes, and the whole array -/

/-- What block t writes back is block t of matMul x W. -/
theorem flushed_dense4 (c : Dev nD) (t : Fin cfg4.N) :
    (dat4 (F := Ideal) V c).flushed 2 t = ((cfg4.win 2).blk t).view.read (Elt Ideal) (matMul (V c main_v91) (V c main_arg7)) := by
  show (cfg4.win 2).cut (grid4.coords t) ((dat4 V c).after 2 t) = _
  rw [after4_2]; unfold out4_2
  rw [View.canon_unit_zero dense4_zero_offsets]
  simp only [View.ld_unit_zero (S := S5000x64) dense4_zero_offsets, View.ld_unit_zero (S := S64x64) dense4_zero_offsets]
  funext j
  have hp : (j 0).val < 5000 := (j 0).isLt
  have hq : (j 1).val < 64 := (j 1).isLt
  obtain ⟨-, -, -, -, e20, e21⟩ := dense4_index_maps t
  have hx : win4_2.xinj (grid4.coords t) j = ix2 (⟨(j 0).val, hp⟩ : Fin 5000) (⟨(j 1).val, hq⟩ : Fin 64) :=
    funext fun a => by match a with | ⟨0, _⟩ => rfl | ⟨1, _⟩ => rfl
  show k4_pay1 (iblk4 V c 0 t) (iblk4 V c 1 t) (win4_2.xinj (grid4.coords t) j)
    = matMul (V c main_v91) (V c main_arg7) (((cfg4.win 2).blk t).view.emb j)
  have hrow : (row (((cfg4.win 2).blk t).view.emb j)).val = t.val * 5000 + (j 0).val := by
    show win4_2.index t (0 : Fin 2) * 5000 + 1 * (j 0).val = _; omega
  have hcol : col (((cfg4.win 2).blk t).view.emb j) = (⟨(j 1).val, hq⟩ : Fin 64) :=
    Fin.ext (by show win4_2.index t (1 : Fin 2) * 64 + 1 * (j 1).val = (j 1).val; omega)
  refine (congrArg (k4_pay1 (iblk4 V c 0 t) (iblk4 V c 1 t)) hx).trans ?_
  refine (dense4_block_product (iblk4 V c 0 t) (iblk4 V c 1 t) ⟨(j 0).val, hp⟩ ⟨(j 1).val, hq⟩).trans ?_
  unfold matMul
  refine Finset.sum_congr rfl fun k _ => ?_
  rw [hcol]
  exact congrArg₂ (· * ·)
    (dense4_x_block V c t ⟨(j 0).val, hp⟩ k (row (((cfg4.win 2).blk t).view.emb j)) hrow)
    (dense4_w_block V c t k ⟨(j 1).val, hq⟩)

/-- Row r of the output lies in block r / 5000. -/
theorem dense4_cover (i : SNxD.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 20 := N_4
  obtain ⟨t, ht⟩ : ∃ t : Fin cfg4.N, t.val = (i 0).val / 5000 :=
    ⟨⟨(i 0).val / 5000, by show (i 0).val / 5000 < grid4.N; rw [hN]; omega⟩, rfl⟩
  obtain ⟨-, -, -, -, e20, e21⟩ := dense4_index_maps t
  refine ⟨t, flush4_2 t, ?_⟩
  show i ∈ ((View.whole main_v92).slice (win4_2.rect t)).set
  rw [View.set_slice_whole, Rect.mem_set_unit]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 64 ≤ (i 1).val ∧ (i 1).val < win4_2.index t (1 : Fin 2) * 64 + 64
    omega

/-- The output array after the twenty blocks is matMul x W. -/
theorem dense4 (c : Dev nD) :
    (dat4 (F := Ideal) V c).arrAt 2 cfg4.N = matMul (V c main_v91) (V c main_arg7) :=
  (dat4 (F := Ideal) V c).arrAt_eq_of_cover 2 _ (fun t _ => flushed_dense4 V c t) (fun i => dense4_cover i)

end Cert.KernelIdeal.RegVal

end
-- ==== Proof.RegBnRelu1.lean ====
/-
  The first graph-convolution layer's output stage: the layer's output, normalised at running statistics and rectified.

  The output array out : [100000, 64] is produced in 20 blocks of 5000 nodes.  At block n the stage reads rows
  5000 n … 5000 n + 4999 of the neighbours' sum agg and of the transformed features h (both [100000, 64]), the same
  rows of the per-node scale d2 ([100000, 1]), and five per-channel rows ([1, 64]): the bias b, the scale g, the
  shift be, the running mean rm and the running variance rv.  At node p of the block and channel q it writes
      max (((agg (p, q) + d2 (p) * h (p, q) + b (q)) - rm (q)) * rsqrt (rv (q) + eps) * g (q) + be (q), 0),
  with eps the float32 word 0x3727C5AC at its exact value.  This module shows that after the 20 blocks the whole
  output array is that function of the eight input arrays at every node n and channel q, for any contents of the
  inputs: the value written at one entry of a block, the position of that entry in each input array, the fact that
  the 20 blocks cover every node, and the conclusion for the whole array.
-/
import proofs.«402829_j82592221102294_2_alg».proof.Proof.Gen.KernelIdeal.Frame
import proofs.«402829_j82592221102294_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The whole-block rectangle sits at offset zero on both axes. -/
theorem zero_offsets1 : (![0, 0] : Fin 2 → Nat) = fun _ => 0 := funext fun a => by fin_cases a <;> rfl

/-- The block indices over the 20 grid points: the three node-indexed inputs move with the output block, whose
    row-block index is the point's number; the five per-channel rows stay at block (0, 0); no window moves along
    the channels. -/
theorem block_index1 : ∀ t : Fin cfg1.N,
    win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = win1_8.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- A column [5000, 1] spread over 64 channels reads, at (p, q), the column's entry p. -/
theorem column_spread1 {α : Type} (x : S5000x1.Idx → α) (p : Fin 5000) (q : Fin 64) :
    broadcastTo S5000x64 x broadcasts_S5000x1_S5000x64 (ix2 p q) = x (ix2 p 0) :=
  broadcastTo_apply x broadcasts_S5000x1_S5000x64 (ix2 p q) (ix2 p 0) fun a => by
    match a with
    | ⟨0, _⟩ => rfl
    | ⟨1, _⟩ => rfl

/-- A row [1, 64] spread over 5000 nodes reads, at (p, q), the row's entry q. -/
theorem row_spread1 {α : Type} (x : S1x64.Idx → α) (p : Fin 5000) (q : Fin 64) :
    broadcastTo S5000x64 x broadcasts_S1x64_S5000x64 (ix2 p q) = x (ix2 0 q) :=
  broadcastTo_1b_ab_apply x broadcasts_S1x64_S5000x64 p q

/-- The body's value at (p, q) over the eight loaded blocks: the layer's output agg + d2 * h + b, minus the running
    mean, times the inverse square root of the running variance plus epsilon, times the scale, plus the shift,
    and the maximum of that with zero. -/
theorem bnrelu_payload_at1 (x0 x1 : Vec Ideal S5000x64 .f32) (x2 : Vec Ideal S5000x1 .f32)
    (x3 x4 x5 x6 x7 : Vec Ideal S1x64 .f32) (p : Fin 5000) (q : Fin 64) :
    k1_pay1 (F := Ideal) x0 x2 x1 x3 x6 x7 x4 x5 (ix2 p q)
      = max ((x0 (ix2 p q) + x2 (ix2 p 0) * x1 (ix2 p q) + x3 (ix2 0 q) - x6 (ix2 0 q))
            * Ideal.rsqrt (x7 (ix2 0 q) + Ideal.ofBits .f32 0x3727C5AC#32) * x4 (ix2 0 q) + x5 (ix2 0 q))
          (Ideal.ofBits .f32 0x00000000#32) := by
  unfold k1_pay1
  simp only [shapeCast_self]
  show max ((x0 (ix2 p q) + broadcastTo S5000x64 x2 broadcasts_S5000x1_S5000x64 (ix2 p q) * x1 (ix2 p q)
            + broadcastTo S5000x64 x3 broadcasts_S1x64_S5000x64 (ix2 p q)
            - broadcastTo S5000x64 x6 broadcasts_S1x64_S5000x64 (ix2 p q))
          * broadcastTo S5000x64 (rsqrt (addf x7 (broadcast S1x64 (Scalar.ofBits (F := Ideal) .f32 0x3727C5AC#32))))
              broadcasts_S1x64_S5000x64 (ix2 p q)
          * broadcastTo S5000x64 x4 broadcasts_S1x64_S5000x64 (ix2 p q)
          + broadcastTo S5000x64 x5 broadcasts_S1x64_S5000x64 (ix2 p q))
        (Scalar.ofBits (F := Ideal) .f32 0x00000000#32) = _
  rw [column_spread1, row_spread1 x3, row_spread1 x6, row_spread1 x4, row_spread1 x5, row_spread1]
  rfl

/-- If the eight blocks hold, at (p, q), (p) and (q), the arrays' entries at the array index i, its node and its
    channel, then the body's value at (p, q) is the normalised, rectified layer's output at i. -/
theorem bnrelu_block_at1 (x0 x1 : Vec Ideal S5000x64 .f32) (x2 : Vec Ideal S5000x1 .f32)
    (x3 x4 x5 x6 x7 : Vec Ideal S1x64 .f32)
    (agg h : SNxD.Idx → EReal) (d2 : SNx1.Idx → EReal) (b g be rm rv : S1xD.Idx → EReal)
    (p : Fin 5000) (q : Fin 64) (i : SNxD.Idx)
    (e0 : x0 (ix2 p q) = agg i) (e1 : x1 (ix2 p q) = h i) (e2 : x2 (ix2 p 0) = d2 (ix2 (row i) 0))
    (e3 : x3 (ix2 0 q) = b (ix2 0 (col i))) (e4 : x4 (ix2 0 q) = g (ix2 0 (col i)))
    (e5 : x5 (ix2 0 q) = be (ix2 0 (col i))) (e6 : x6 (ix2 0 q) = rm (ix2 0 (col i)))
    (e7 : x7 (ix2 0 q) = rv (ix2 0 (col i))) :
    k1_pay1 (F := Ideal) x0 x2 x1 x3 x6 x7 x4 x5 (ix2 p q) = convBnRelu agg h d2 b g be rm rv i := by
  rw [bnrelu_payload_at1, e0, e1, e2, e3, e4, e5, e6, e7]
  rfl

/-- What point t writes back is block t of the normalised, rectified layer's output over the arrays the region finds. -/
theorem written_block1 (c : Dev nD) (t : Fin cfg1.N) :
    (dat1 (F := Ideal) V c).flushed 8 t = ((cfg1.win 8).blk t).view.read (Elt Ideal)
      (convBnRelu (V c main_v39) (V c main_v4) (V c main_v41) (V c main_v42) (V c main_v43) (V c main_v44) (V c main_v45) (V c main_v46)) := by
  show (cfg1.win 8).cut (grid1.coords t) ((dat1 V c).after 8 t) = _
  rw [after1_8]
  unfold out1_8
  rw [View.canon_unit_zero zero_offsets1]
  simp only [View.ld_unit_zero (S := S5000x64) zero_offsets1, View.ld_unit_zero (S := S5000x1) zero_offsets1,
    View.ld_unit_zero (S := S1x64) zero_offsets1]
  obtain ⟨e00, e01, e10, e11, e20, e21, e30, e31, e40, e41, e50, e51, e60, e61, e70, e71, e80, e81⟩ := block_index1 t
  funext j
  obtain ⟨p, q, rfl⟩ : ∃ (p : Fin 5000) (q : Fin 64), j = ix2 p q := ⟨j 0, j 1, eq_ix2 j⟩
  show k1_pay1 (F := Ideal) (iblk1 V c 0 t) (iblk1 V c 2 t) (iblk1 V c 1 t) (iblk1 V c 3 t)
        (iblk1 V c 6 t) (iblk1 V c 7 t) (iblk1 V c 4 t) (iblk1 V c 5 t) (ix2 p q)
      = convBnRelu (V c main_v39) (V c main_v4) (V c main_v41) (V c main_v42) (V c main_v43) (V c main_v44) (V c main_v45) (V c main_v46)
          (((cfg1.win 8).blk t).view.emb (ix2 p q))
  refine bnrelu_block_at1 (iblk1 V c 0 t) (iblk1 V c 1 t) (iblk1 V c 2 t) (iblk1 V c 3 t)
    (iblk1 V c 4 t) (iblk1 V c 5 t) (iblk1 V c 6 t) (iblk1 V c 7 t)
    (V c main_v39) (V c main_v4) (V c main_v41) (V c main_v42) (V c main_v43) (V c main_v44) (V c main_v45) (V c main_v46)
    p q (((cfg1.win 8).blk t).view.emb (ix2 p q)) ?_ ?_ ?_ ?_ ?_ ?_ ?_ ?_
  · show V c main_v39 (((cfg1.win 0).blk t).view.emb (ix2 p q)) = V c main_v39 (((cfg1.win 8).blk t).view.emb (ix2 p q))
    refine congrArg _ (funext fun a => Fin.ext ?_)
    match a with
    | ⟨0, _⟩ => show win1_0.index t (0 : Fin 2) * 5000 + 1 * p.val = win1_8.index t (0 : Fin 2) * 5000 + 1 * p.val; omega
    | ⟨1, _⟩ => show win1_0.index t (1 : Fin 2) * 64 + 1 * q.val = win1_8.index t (1 : Fin 2) * 64 + 1 * q.val; omega
  · show V c main_v4 (((cfg1.win 1).blk t).view.emb (ix2 p q)) = V c main_v4 (((cfg1.win 8).blk t).view.emb (ix2 p q))
    refine congrArg _ (funext fun a => Fin.ext ?_)
    match a with
    | ⟨0, _⟩ => show win1_1.index t (0 : Fin 2) * 5000 + 1 * p.val = win1_8.index t (0 : Fin 2) * 5000 + 1 * p.val; omega
    | ⟨1, _⟩ => show win1_1.index t (1 : Fin 2) * 64 + 1 * q.val = win1_8.index t (1 : Fin 2) * 64 + 1 * q.val; omega
  · show V c main_v41 (((cfg1.win 2).blk t).view.emb (ix2 p 0))
        = V c main_v41 (ix2 (row (((cfg1.win 8).blk t).view.emb (ix2 p q))) 0)
    refine congrArg _ (funext fun a => Fin.ext ?_)
    match a with
    | ⟨0, _⟩ => show win1_2.index t (0 : Fin 2) * 5000 + 1 * p.val = win1_8.index t (0 : Fin 2) * 5000 + 1 * p.val; omega
    | ⟨1, _⟩ => show win1_2.index t (1 : Fin 2) * 1 + 1 * 0 = 0; omega
  · show V c main_v42 (((cfg1.win 3).blk t).view.emb (ix2 0 q))
        = V c main_v42 (ix2 0 (col (((cfg1.win 8).blk t).view.emb (ix2 p q))))
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = win1_8.index t (1 : Fin 2) * 64 + 1 * q.val; omega
  · show V c main_v43 (((cfg1.win 4).blk t).view.emb (ix2 0 q))
        = V c main_v43 (ix2 0 (col (((cfg1.win 8).blk t).view.emb (ix2 p q))))
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * q.val = win1_8.index t (1 : Fin 2) * 64 + 1 * q.val; omega
  · show V c main_v44 (((cfg1.win 5).blk t).view.emb (ix2 0 q))
        = V c main_v44 (ix2 0 (col (((cfg1.win 8).blk t).view.emb (ix2 p q))))
    refine congrArg _ (funext fun a => Fin.ext ?_)
    match a with
    | ⟨0, _⟩ => show win1_5.index t (0 : Fin 2) * 1 + 1 * 0 = 0; omega
    | ⟨1, _⟩ => show win1_5.index t (1 : Fin 2) * 64 + 1 * q.val = win1_8.index t (1 : Fin 2) * 64 + 1 * q.val; omega
  · show V c main_v45 (((cfg1.win 6).blk t).view.emb (ix2 0 q))
        = V c main_v45 (ix2 0 (col (((cfg1.win 8).blk t).view.emb (ix2 p q))))
    refine congrArg _ (funext fun a => Fin.ext ?_)
    match a with
    | ⟨0, _⟩ => show win1_6.index t (0 : Fin 2) * 1 + 1 * 0 = 0; omega
    | ⟨1, _⟩ => show win1_6.index t (1 : Fin 2) * 64 + 1 * q.val = win1_8.index t (1 : Fin 2) * 64 + 1 * q.val; omega
  · show V c main_v46 (((cfg1.win 7).blk t).view.emb (ix2 0 q))
        = V c main_v46 (ix2 0 (col (((cfg1.win 8).blk t).view.emb (ix2 p q))))
    refine congrArg _ (funext fun a => Fin.ext ?_)
    match a with
    | ⟨0, _⟩ => show win1_7.index t (0 : Fin 2) * 1 + 1 * 0 = 0; omega
    | ⟨1, _⟩ => show win1_7.index t (1 : Fin 2) * 64 + 1 * q.val = win1_8.index t (1 : Fin 2) * 64 + 1 * q.val; omega

/-- An entry of the output array lies in point t's block iff each coordinate lies in the block's range on its axis. -/
theorem in_block1 (t : Fin cfg1.N) (i : SNxD.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v47).slice (win1_8.rect t)).set ↔ _
  rw [View.set_slice_whole, Rect.mem_set_unit]
  exact Iff.rfl

/-- The 20 blocks of 5000 nodes tile the 100000 nodes: the entry of node n is written by point n / 5000. -/
theorem every_entry_written1 (i : SNxD.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by have hN := N_1; show (i 0).val / 5000 < grid1.N; omega⟩, rfl⟩
  obtain ⟨-, -, -, -, -, -, -, -, -, -, -, -, -, -, -, -, e80, e81⟩ := block_index1 t
  refine ⟨t, flush1_8 t, ?_⟩
  rw [in_block1]
  intro a
  match a with
  | ⟨0, _⟩ =>
    show win1_8.index t (0 : Fin 2) * 5000 ≤ (i 0).val ∧ (i 0).val < win1_8.index t (0 : Fin 2) * 5000 + 5000
    omega
  | ⟨1, _⟩ =>
    show win1_8.index t (1 : Fin 2) * 64 ≤ (i 1).val ∧ (i 1).val < win1_8.index t (1 : Fin 2) * 64 + 64
    omega

/-- After the 20 grid points the output array is the normalised, rectified layer's output of the arrays the region
    finds on entry. -/
theorem bnrelu1 (c : Dev nD) :
    (dat1 (F := Ideal) V c).arrAt 8 cfg1.N = convBnRelu (V c main_v39) (V c main_v4) (V c main_v41) (V c main_v42) (V c main_v43) (V c main_v44) (V c main_v45) (V c main_v46) :=
  (dat1 (F := Ideal) V c).arrAt_eq_of_cover 8 _ (fun t _ => written_block1 V c t) every_entry_written1

end Cert.KernelIdeal.RegVal

end
-- ==== Proof.RegBnRelu3.lean ====
/-
  The second graph-convolution layer's output stage: the layer's output, normalised at running statistics and rectified.

  The output array out : [100000, 64] is produced in 20 blocks of 5000 nodes.  At block n the stage reads rows
  5000 n … 5000 n + 4999 of the neighbours' sum agg and of the transformed features h (both [100000, 64]), the same
  rows of the per-node scale d2 ([100000, 1]), and five per-channel rows ([1, 64]): the bias b, the scale g, the
  shift be, the running mean rm and the running variance rv.  At node p of the block and channel q it writes
      max (((agg (p, q) + d2 (p) * h (p, q) + b (q)) - rm (q)) * rsqrt (rv (q) + eps) * g (q) + be (q), 0),
  with eps the float32 word 0x3727C5AC at its exact value.  This module shows that after the 20 blocks the whole
  output array is that function of the eight input arrays at every node n and channel q, for any contents of the
  inputs: the value written at one entry of a block, the position of that entry in each input array, the fact that
  the 20 blocks cover every node, and the conclusion for the whole array.
-/
import proofs.«402829_j82592221102294_2_alg».proof.Proof.Gen.KernelIdeal.Frame
import proofs.«402829_j82592221102294_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The whole-block rectangle sits at offset zero on both axes. -/
theorem zero_offsets3 : (![0, 0] : Fin 2 → Nat) = fun _ => 0 := funext fun a => by fin_cases a <;> rfl

/-- The block indices over the 20 grid points: the three node-indexed inputs move with the output block, whose
    row-block index is the point's number; the five per-channel rows stay at block (0, 0); no window moves along
    the channels. -/
theorem block_index3 : ∀ t : Fin cfg3.N,
    win3_0.index t (0 : Fin 2) = win3_8.index t (0 : Fin 2) ∧ win3_0.index t (1 : Fin 2) = 0
    ∧ win3_1.index t (0 : Fin 2) = win3_8.index t (0 : Fin 2) ∧ win3_1.index t (1 : Fin 2) = 0
    ∧ win3_2.index t (0 : Fin 2) = win3_8.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- A column [5000, 1] spread over 64 channels reads, at (p, q), the column's entry p. -/
theorem column_spread3 {α : Type} (x : S5000x1.Idx → α) (p : Fin 5000) (q : Fin 64) :
    broadcastTo S5000x64 x broadcasts_S5000x1_S5000x64 (ix2 p q) = x (ix2 p 0) :=
  broadcastTo_apply x broadcasts_S5000x1_S5000x64 (ix2 p q) (ix2 p 0) fun a => by
    match a with
    | ⟨0, _⟩ => rfl
    | ⟨1, _⟩ => rfl

/-- A row [1, 64] spread over 5000 nodes reads, at (p, q), the row's entry q. -/
theorem row_spread3 {α : Type} (x : S1x64.Idx → α) (p : Fin 5000) (q : Fin 64) :
    broadcastTo S5000x64 x broadcasts_S1x64_S5000x64 (ix2 p q) = x (ix2 0 q) :=
  broadcastTo_1b_ab_apply x broadcasts_S1x64_S5000x64 p q

/-- The body's value at (p, q) over the eight loaded blocks: the layer's output agg + d2 * h + b, minus the running
    mean, times the inverse square root of the running variance plus epsilon, times the scale, plus the shift,
    and the maximum of that with zero. -/
theorem bnrelu_payload_at3 (x0 x1 : Vec Ideal S5000x64 .f32) (x2 : Vec Ideal S5000x1 .f32)
    (x3 x4 x5 x6 x7 : Vec Ideal S1x64 .f32) (p : Fin 5000) (q : Fin 64) :
    k3_pay1 (F := Ideal) x0 x2 x1 x3 x6 x7 x4 x5 (ix2 p q)
      = max ((x0 (ix2 p q) + x2 (ix2 p 0) * x1 (ix2 p q) + x3 (ix2 0 q) - x6 (ix2 0 q))
            * Ideal.rsqrt (x7 (ix2 0 q) + Ideal.ofBits .f32 0x3727C5AC#32) * x4 (ix2 0 q) + x5 (ix2 0 q))
          (Ideal.ofBits .f32 0x00000000#32) := by
  unfold k3_pay1
  simp only [shapeCast_self]
  show max ((x0 (ix2 p q) + broadcastTo S5000x64 x2 broadcasts_S5000x1_S5000x64 (ix2 p q) * x1 (ix2 p q)
            + broadcastTo S5000x64 x3 broadcasts_S1x64_S5000x64 (ix2 p q)
            - broadcastTo S5000x64 x6 broadcasts_S1x64_S5000x64 (ix2 p q))
          * broadcastTo S5000x64 (rsqrt (addf x7 (broadcast S1x64 (Scalar.ofBits (F := Ideal) .f32 0x3727C5AC#32))))
              broadcasts_S1x64_S5000x64 (ix2 p q)
          * broadcastTo S5000x64 x4 broadcasts_S1x64_S5000x64 (ix2 p q)
          + broadcastTo S5000x64 x5 broadcasts_S1x64_S5000x64 (ix2 p q))
        (Scalar.ofBits (F := Ideal) .f32 0x00000000#32) = _
  rw [column_spread3, row_spread3 x3, row_spread3 x6, row_spread3 x4, row_spread3 x5, row_spread3]
  rfl

/-- If the eight blocks hold, at (p, q), (p) and (q), the arrays' entries at the array index i, its node and its
    channel, then the body's value at (p, q) is the normalised, rectified layer's output at i. -/
theorem bnrelu_block_at3 (x0 x1 : Vec Ideal S5000x64 .f32) (x2 : Vec Ideal S5000x1 .f32)
    (x3 x4 x5 x6 x7 : Vec Ideal S1x64 .f32)
    (agg h : SNxD.Idx → EReal) (d2 : SNx1.Idx → EReal) (b g be rm rv : S1xD.Idx → EReal)
    (p : Fin 5000) (q : Fin 64) (i : SNxD.Idx)
    (e0 : x0 (ix2 p q) = agg i) (e1 : x1 (ix2 p q) = h i) (e2 : x2 (ix2 p 0) = d2 (ix2 (row i) 0))
    (e3 : x3 (ix2 0 q) = b (ix2 0 (col i))) (e4 : x4 (ix2 0 q) = g (ix2 0 (col i)))
    (e5 : x5 (ix2 0 q) = be (ix2 0 (col i))) (e6 : x6 (ix2 0 q) = rm (ix2 0 (col i)))
    (e7 : x7 (ix2 0 q) = rv (ix2 0 (col i))) :
    k3_pay1 (F := Ideal) x0 x2 x1 x3 x6 x7 x4 x5 (ix2 p q) = convBnRelu agg h d2 b g be rm rv i := by
  rw [bnrelu_payload_at3, e0, e1, e2, e3, e4, e5, e6, e7]
  rfl

/-- What point t writes back is block t of the normalised, rectified layer's output over the arrays the region finds. -/
theorem written_block3 (c : Dev nD) (t : Fin cfg3.N) :
    (dat3 (F := Ideal) V c).flushed 8 t = ((cfg3.win 8).blk t).view.read (Elt Ideal)
      (convBnRelu (V c main_v83) (V c main_v48) (V c main_v85) (V c main_v86) (V c main_v87) (V c main_v88) (V c main_v89) (V c main_v90)) := by
  show (cfg3.win 8).cut (grid3.coords t) ((dat3 V c).after 8 t) = _
  rw [after3_8]
  unfold out3_8
  rw [View.canon_unit_zero zero_offsets3]
  simp only [View.ld_unit_zero (S := S5000x64) zero_offsets3, View.ld_unit_zero (S := S5000x1) zero_offsets3,
    View.ld_unit_zero (S := S1x64) zero_offsets3]
  obtain ⟨e00, e01, e10, e11, e20, e21, e30, e31, e40, e41, e50, e51, e60, e61, e70, e71, e80, e81⟩ := block_index3 t
  funext j
  obtain ⟨p, q, rfl⟩ : ∃ (p : Fin 5000) (q : Fin 64), j = ix2 p q := ⟨j 0, j 1, eq_ix2 j⟩
  show k3_pay1 (F := Ideal) (iblk3 V c 0 t) (iblk3 V c 2 t) (iblk3 V c 1 t) (iblk3 V c 3 t)
        (iblk3 V c 6 t) (iblk3 V c 7 t) (iblk3 V c 4 t) (iblk3 V c 5 t) (ix2 p q)
      = convBnRelu (V c main_v83) (V c main_v48) (V c main_v85) (V c main_v86) (V c main_v87) (V c main_v88) (V c main_v89) (V c main_v90)
          (((cfg3.win 8).blk t).view.emb (ix2 p q))
  refine bnrelu_block_at3 (iblk3 V c 0 t) (iblk3 V c 1 t) (iblk3 V c 2 t) (iblk3 V c 3 t)
    (iblk3 V c 4 t) (iblk3 V c 5 t) (iblk3 V c 6 t) (iblk3 V c 7 t)
    (V c main_v83) (V c main_v48) (V c main_v85) (V c main_v86) (V c main_v87) (V c main_v88) (V c main_v89) (V c main_v90)
    p q (((cfg3.win 8).blk t).view.emb (ix2 p q)) ?_ ?_ ?_ ?_ ?_ ?_ ?_ ?_
  · show V c main_v83 (((cfg3.win 0).blk t).view.emb (ix2 p q)) = V c main_v83 (((cfg3.win 8).blk t).view.emb (ix2 p q))
    refine congrArg _ (funext fun a => Fin.ext ?_)
    match a with
    | ⟨0, _⟩ => show win3_0.index t (0 : Fin 2) * 5000 + 1 * p.val = win3_8.index t (0 : Fin 2) * 5000 + 1 * p.val; omega
    | ⟨1, _⟩ => show win3_0.index t (1 : Fin 2) * 64 + 1 * q.val = win3_8.index t (1 : Fin 2) * 64 + 1 * q.val; omega
  · show V c main_v48 (((cfg3.win 1).blk t).view.emb (ix2 p q)) = V c main_v48 (((cfg3.win 8).blk t).view.emb (ix2 p q))
    refine congrArg _ (funext fun a => Fin.ext ?_)
    match a with
    | ⟨0, _⟩ => show win3_1.index t (0 : Fin 2) * 5000 + 1 * p.val = win3_8.index t (0 : Fin 2) * 5000 + 1 * p.val; omega
    | ⟨1, _⟩ => show win3_1.index t (1 : Fin 2) * 64 + 1 * q.val = win3_8.index t (1 : Fin 2) * 64 + 1 * q.val; omega
  · show V c main_v85 (((cfg3.win 2).blk t).view.emb (ix2 p 0))
        = V c main_v85 (ix2 (row (((cfg3.win 8).blk t).view.emb (ix2 p q))) 0)
    refine congrArg _ (funext fun a => Fin.ext ?_)
    match a with
    | ⟨0, _⟩ => show win3_2.index t (0 : Fin 2) * 5000 + 1 * p.val = win3_8.index t (0 : Fin 2) * 5000 + 1 * p.val; omega
    | ⟨1, _⟩ => show win3_2.index t (1 : Fin 2) * 1 + 1 * 0 = 0; omega
  · show V c main_v86 (((cfg3.win 3).blk t).view.emb (ix2 0 q))
        = V c main_v86 (ix2 0 (col (((cfg3.win 8).blk t).view.emb (ix2 p q))))
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * q.val = win3_8.index t (1 : Fin 2) * 64 + 1 * q.val; omega
  · show V c main_v87 (((cfg3.win 4).blk t).view.emb (ix2 0 q))
        = V c main_v87 (ix2 0 (col (((cfg3.win 8).blk t).view.emb (ix2 p q))))
    refine congrArg _ (funext fun a => Fin.ext ?_)
    match a with
    | ⟨0, _⟩ => show win3_4.index t (0 : Fin 2) * 1 + 1 * 0 = 0; omega
    | ⟨1, _⟩ => show win3_4.index t (1 : Fin 2) * 64 + 1 * q.val = win3_8.index t (1 : Fin 2) * 64 + 1 * q.val; omega
  · show V c main_v88 (((cfg3.win 5).blk t).view.emb (ix2 0 q))
        = V c main_v88 (ix2 0 (col (((cfg3.win 8).blk t).view.emb (ix2 p q))))
    refine congrArg _ (funext fun a => Fin.ext ?_)
    match a with
    | ⟨0, _⟩ => show win3_5.index t (0 : Fin 2) * 1 + 1 * 0 = 0; omega
    | ⟨1, _⟩ => show win3_5.index t (1 : Fin 2) * 64 + 1 * q.val = win3_8.index t (1 : Fin 2) * 64 + 1 * q.val; omega
  · show V c main_v89 (((cfg3.win 6).blk t).view.emb (ix2 0 q))
        = V c main_v89 (ix2 0 (col (((cfg3.win 8).blk t).view.emb (ix2 p q))))
    refine congrArg _ (funext fun a => Fin.ext ?_)
    match a with
    | ⟨0, _⟩ => show win3_6.index t (0 : Fin 2) * 1 + 1 * 0 = 0; omega
    | ⟨1, _⟩ => show win3_6.index t (1 : Fin 2) * 64 + 1 * q.val = win3_8.index t (1 : Fin 2) * 64 + 1 * q.val; omega
  · show V c main_v90 (((cfg3.win 7).blk t).view.emb (ix2 0 q))
        = V c main_v90 (ix2 0 (col (((cfg3.win 8).blk t).view.emb (ix2 p q))))
    refine congrArg _ (funext fun a => Fin.ext ?_)
    match a with
    | ⟨0, _⟩ => show win3_7.index t (0 : Fin 2) * 1 + 1 * 0 = 0; omega
    | ⟨1, _⟩ => show win3_7.index t (1 : Fin 2) * 64 + 1 * q.val = win3_8.index t (1 : Fin 2) * 64 + 1 * q.val; omega

/-- An entry of the output array lies in point t's block iff each coordinate lies in the block's range on its axis. -/
theorem in_block3 (t : Fin cfg3.N) (i : SNxD.Idx) :
    i ∈ ((cfg3.win 8).blk t).view.set ↔ ∀ a : Fin 2, win3_8.index t a * S5000x64.size a ≤ (i a).val
      ∧ (i a).val < win3_8.index t a * S5000x64.size a + S5000x64.size a := by
  show i ∈ ((View.whole main_v91).slice (win3_8.rect t)).set ↔ _
  rw [View.set_slice_whole, Rect.mem_set_unit]
  exact Iff.rfl

/-- The 20 blocks of 5000 nodes tile the 100000 nodes: the entry of node n is written by point n / 5000. -/
theorem every_entry_written3 (i : SNxD.Idx) :
    ∃ t : Fin cfg3.N, (cfg3.win 8).flush t = true ∧ i ∈ ((cfg3.win 8).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by have hN := N_3; show (i 0).val / 5000 < grid3.N; omega⟩, rfl⟩
  obtain ⟨-, -, -, -, -, -, -, -, -, -, -, -, -, -, -, -, e80, e81⟩ := block_index3 t
  refine ⟨t, flush3_8 t, ?_⟩
  rw [in_block3]
  intro a
  match a with
  | ⟨0, _⟩ =>
    show win3_8.index t (0 : Fin 2) * 5000 ≤ (i 0).val ∧ (i 0).val < win3_8.index t (0 : Fin 2) * 5000 + 5000
    omega
  | ⟨1, _⟩ =>
    show win3_8.index t (1 : Fin 2) * 64 ≤ (i 1).val ∧ (i 1).val < win3_8.index t (1 : Fin 2) * 64 + 64
    omega

/-- After the 20 grid points the output array is the normalised, rectified layer's output of the arrays the region
    finds on entry. -/
theorem bnrelu3 (c : Dev nD) :
    (dat3 (F := Ideal) V c).arrAt 8 cfg3.N = convBnRelu (V c main_v83) (V c main_v48) (V c main_v85) (V c main_v86) (V c main_v87) (V c main_v88) (V c main_v89) (V c main_v90) :=
  (dat3 (F := Ideal) V c).arrAt_eq_of_cover 8 _ (fun t _ => written_block3 V c t) every_entry_written3

end Cert.KernelIdeal.RegVal

end
-- ==== Proof.RegPlain5.lean ====
/-
  The last graph-convolution layer's output stage, without normalisation.

  The output array out : [100000, 64] is produced in 20 blocks of 5000 nodes.  At block n the stage reads rows
  5000 n … 5000 n + 4999 of the neighbours' sum agg and of the transformed features h (both [100000, 64]), the same
  rows of the per-node scale d2 ([100000, 1]), and the one bias row b ([1, 64]), and writes, at node p of the block
  and channel q,
      agg (p, q) + d2 (p) * h (p, q) + b (q).
  This module shows that after the 20 blocks the whole output array is
      out (n, q) = agg (n, q) + d2 (n) * h (n, q) + b (q)          for every node n and channel q,
  for any contents of the four input arrays: the value written at one entry of a block, the position of that entry
  in each input array, the fact that the 20 blocks cover every node, and the conclusion for the whole array.
-/
import proofs.«402829_j82592221102294_2_alg».proof.Proof.Gen.KernelIdeal.Frame
import proofs.«402829_j82592221102294_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The whole-block rectangle sits at offset zero on both axes. -/
theorem zero_offsets5 : (![0, 0] : Fin 2 → Nat) = fun _ => 0 := funext fun a => by fin_cases a <;> rfl

/-- The block indices over the 20 grid points: the three node-indexed inputs move with the output block, whose
    row-block index is the point's number; the bias row stays at block (0, 0); no window moves along the channels. -/
theorem block_index5 : ∀ t : Fin cfg5.N,
    win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- A column [5000, 1] spread over 64 channels reads, at (p, q), the column's entry p. -/
theorem column_spread5 (x : Vec Ideal S5000x1 .f32) (p : Fin 5000) (q : Fin 64) :
    broadcastTo S5000x64 x broadcasts_S5000x1_S5000x64 (ix2 p q) = x (ix2 p 0) :=
  broadcastTo_apply x broadcasts_S5000x1_S5000x64 (ix2 p q) (ix2 p 0) fun a => by
    match a with
    | ⟨0, _⟩ => rfl
    | ⟨1, _⟩ => rfl

/-- A row [1, 64] spread over 5000 nodes reads, at (p, q), the row's entry q. -/
theorem row_spread5 (x : Vec Ideal S1x64 .f32) (p : Fin 5000) (q : Fin 64) :
    broadcastTo S5000x64 x broadcasts_S1x64_S5000x64 (ix2 p q) = x (ix2 0 q) :=
  broadcastTo_1b_ab_apply x broadcasts_S1x64_S5000x64 p q

/-- The body's value at (p, q): agg (p, q) + d2 (p) * h (p, q) + b (q), over the four loaded blocks. -/
theorem plain_payload_at (x0 x1 : Vec Ideal S5000x64 .f32) (x2 : Vec Ideal S5000x1 .f32) (x3 : Vec Ideal S1x64 .f32)
    (p : Fin 5000) (q : Fin 64) :
    k5_pay1 (F := Ideal) x0 x2 x1 x3 (ix2 p q) = x0 (ix2 p q) + x2 (ix2 p 0) * x1 (ix2 p q) + x3 (ix2 0 q) := by
  unfold k5_pay1
  simp only [shapeCast_self]
  show x0 (ix2 p q) + broadcastTo S5000x64 x2 broadcasts_S5000x1_S5000x64 (ix2 p q) * x1 (ix2 p q)
      + broadcastTo S5000x64 x3 broadcasts_S1x64_S5000x64 (ix2 p q) = _
  rw [column_spread5, row_spread5]

/-- If the four blocks hold, at (p, q), (p) and (q), the arrays' entries at the array index i, its node and its
    channel, then the body's value at (p, q) is the layer's output at i. -/
theorem plain_block_at (x0 x1 : Vec Ideal S5000x64 .f32) (x2 : Vec Ideal S5000x1 .f32) (x3 : Vec Ideal S1x64 .f32)
    (agg h : SNxD.Idx → EReal) (d2 : SNx1.Idx → EReal) (b : S1xD.Idx → EReal)
    (p : Fin 5000) (q : Fin 64) (i : SNxD.Idx)
    (e0 : x0 (ix2 p q) = agg i) (e1 : x1 (ix2 p q) = h i)
    (e2 : x2 (ix2 p 0) = d2 (ix2 (row i) 0)) (e3 : x3 (ix2 0 q) = b (ix2 0 (col i))) :
    k5_pay1 (F := Ideal) x0 x2 x1 x3 (ix2 p q) = conv agg h d2 b i := by
  rw [plain_payload_at, e0, e1, e2, e3]
  rfl

/-- What point t writes back is block t of the layer's output over the arrays the region finds. -/
theorem written_block5 (c : Dev nD) (t : Fin cfg5.N) :
    (dat5 (F := Ideal) V c).flushed 4 t = ((cfg5.win 4).blk t).view.read (Elt Ideal)
      (conv (V c main_v127) (V c main_v92) (V c main_v129) (V c main_v130)) := by
  show (cfg5.win 4).cut (grid5.coords t) ((dat5 V c).after 4 t) = _
  rw [after5_4]
  unfold out5_4
  rw [View.canon_unit_zero zero_offsets5]
  simp only [View.ld_unit_zero (S := S5000x64) zero_offsets5, View.ld_unit_zero (S := S5000x1) zero_offsets5,
    View.ld_unit_zero (S := S1x64) zero_offsets5]
  obtain ⟨e00, e01, e10, e11, e20, e21, e30, e31, e40, e41⟩ := block_index5 t
  funext j
  obtain ⟨p, q, rfl⟩ : ∃ (p : Fin 5000) (q : Fin 64), j = ix2 p q := ⟨j 0, j 1, eq_ix2 j⟩
  show k5_pay1 (F := Ideal) (iblk5 V c 0 t) (iblk5 V c 2 t) (iblk5 V c 1 t) (iblk5 V c 3 t) (ix2 p q)
      = conv (V c main_v127) (V c main_v92) (V c main_v129) (V c main_v130) (((cfg5.win 4).blk t).view.emb (ix2 p q))
  refine plain_block_at (iblk5 V c 0 t) (iblk5 V c 1 t) (iblk5 V c 2 t) (iblk5 V c 3 t)
    (V c main_v127) (V c main_v92) (V c main_v129) (V c main_v130) p q (((cfg5.win 4).blk t).view.emb (ix2 p q)) ?_ ?_ ?_ ?_
  · show V c main_v127 (((cfg5.win 0).blk t).view.emb (ix2 p q)) = V c main_v127 (((cfg5.win 4).blk t).view.emb (ix2 p q))
    refine congrArg _ (funext fun a => Fin.ext ?_)
    match a with
    | ⟨0, _⟩ => show win5_0.index t (0 : Fin 2) * 5000 + 1 * p.val = win5_4.index t (0 : Fin 2) * 5000 + 1 * p.val; omega
    | ⟨1, _⟩ => show win5_0.index t (1 : Fin 2) * 64 + 1 * q.val = win5_4.index t (1 : Fin 2) * 64 + 1 * q.val; omega
  · show V c main_v92 (((cfg5.win 1).blk t).view.emb (ix2 p q)) = V c main_v92 (((cfg5.win 4).blk t).view.emb (ix2 p q))
    refine congrArg _ (funext fun a => Fin.ext ?_)
    match a with
    | ⟨0, _⟩ => show win5_1.index t (0 : Fin 2) * 5000 + 1 * p.val = win5_4.index t (0 : Fin 2) * 5000 + 1 * p.val; omega
    | ⟨1, _⟩ => show win5_1.index t (1 : Fin 2) * 64 + 1 * q.val = win5_4.index t (1 : Fin 2) * 64 + 1 * q.val; omega
  · show V c main_v129 (((cfg5.win 2).blk t).view.emb (ix2 p 0))
        = V c main_v129 (ix2 (row (((cfg5.win 4).blk t).view.emb (ix2 p q))) 0)
    refine congrArg _ (funext fun a => Fin.ext ?_)
    match a with
    | ⟨0, _⟩ => show win5_2.index t (0 : Fin 2) * 5000 + 1 * p.val = win5_4.index t (0 : Fin 2) * 5000 + 1 * p.val; omega
    | ⟨1, _⟩ => show win5_2.index t (1 : Fin 2) * 1 + 1 * 0 = 0; omega
  · show V c main_v130 (((cfg5.win 3).blk t).view.emb (ix2 0 q))
        = V c main_v130 (ix2 0 (col (((cfg5.win 4).blk t).view.emb (ix2 p q))))
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * q.val = win5_4.index t (1 : Fin 2) * 64 + 1 * q.val; omega

/-- An entry of the output array lies in point t's block iff each coordinate lies in the block's range on its axis. -/
theorem in_block5 (t : Fin cfg5.N) (i : SNxD.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v131).slice (win5_4.rect t)).set ↔ _
  rw [View.set_slice_whole, Rect.mem_set_unit]
  exact Iff.rfl

/-- The 20 blocks of 5000 nodes tile the 100000 nodes: the entry of node n is written by point n / 5000. -/
theorem every_entry_written5 (i : SNxD.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, by have hN := N_5; show (i 0).val / 5000 < grid5.N; omega⟩, rfl⟩
  obtain ⟨-, -, -, -, -, -, -, -, e40, e41⟩ := block_index5 t
  refine ⟨t, flush5_4 t, ?_⟩
  rw [in_block5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 64 ≤ (i 1).val ∧ (i 1).val < win5_4.index t (1 : Fin 2) * 64 + 64
    omega

/-- After the 20 grid points the output array is the layer's output, agg + d2 * h + b, of the arrays the region
    finds on entry. -/
theorem plain5 (c : Dev nD) :
    (dat5 (F := Ideal) V c).arrAt 4 cfg5.N = conv (V c main_v127) (V c main_v92) (V c main_v129) (V c main_v130) :=
  (dat5 (F := Ideal) V c).arrAt_eq_of_cover 4 _ (fun t _ => written_block5 V c t) every_entry_written5

end Cert.KernelIdeal.RegVal

end
-- ==== Proof.RegPool6.lean ====
/-
  The readout of the graph network: the per-graph sums of the last layer's node rows.

  The [64, 64] result has a single block, which stays in place while the grid walks the 100000 nodes in 20
  blocks of 5000 rows.  The first grid point sets the block to zero and adds its contribution; every later point
  adds its contribution to what the point before left; the block is written to the array once, after the last
  point.  The contribution of a point is a product contracting the 5000 rows of its blocks: the transpose of the
  one-hot matrix of the rows' graph ids (entry (r, γ) is 1 when row r's id is γ and 0 otherwise, obtained by
  comparing the id with the column number and reading the one-bit answer as a number) times the rows' features.

  So after point n entry (γ, d) of the block is the sum over the points s ≤ n and the rows r of
  [id of node 5000 s + r is γ] · feature d of node 5000 s + r, by induction on n; the pairs (s, r) with s < 20 and
  r < 5000 are the nodes 5000 s + r, each once, so after the last point the block holds the sum over all nodes,
  and since the block is the whole array, so does the array.  Over the extended reals the only laws used are
  0 + x = x, reassociation of finite sums, and re-indexing a finite sum along a bijection; none of them asks the
  entries to be finite.
-/
import proofs.«402829_j82592221102294_2_alg».proof.Proof.Gen.KernelIdeal.Frame
import proofs.«402829_j82592221102294_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Readout

/-- The offsets of a whole-buffer access, however spelt, are zero on both axes. -/
theorem zero_offsets : (![0, 0] : Fin 2 → Nat) = fun _ => 0 := funext fun a => by fin_cases a <;> rfl

/-! ## What one grid point leaves in the output block

At a later point the block holding `acc` is overwritten by `acc + onehotᵀ · h`; at the first point the block is
first set to zero and the same update is applied to that zero block. -/

/-- A later point: the block `xo` left by the point before becomes the update of `xo` by the point's rows. -/
theorem later_point (c : Dev nD) (i : grid6.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (hc : ¬cond6_0 i) (x0 : Vec Ideal S5000x64 .f32) (x1 : Vec Ideal S5000x1 .i32) (xo : Vec Ideal S64x64 .f32) :
    out6_B_2 (F := Ideal) c i a1 h1 a2 h2 a3 h3 hc x0 x1 xo = k6_pay2 (F := Ideal) x1 x0 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero zero_offsets]
  simp only [View.readAt_eq_ld, h1.read_unread, h2.read_unread, h3.read_unread,
    View.ld_unit_zero (S := S5000x64) zero_offsets, View.ld_unit_zero (S := S5000x1) zero_offsets,
    View.ld_unit_zero (S := S64x64) zero_offsets]

/-- The first point: the zero block, updated by the point's rows. -/
theorem first_point (c : Dev nD) (i : grid6.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (hc : cond6_0 i) (x0 : Vec Ideal S5000x64 .f32) (x1 : Vec Ideal S5000x1 .i32) :
    out6_A_2 (F := Ideal) c i a1 h1 a2 h2 a3 h3 hc x0 x1 = k6_pay2 (F := Ideal) x1 x0 (k6_pay1 (F := Ideal)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S64x64) zero_offsets, View.readCov_unit_zero (S := S64x64) _ zero_offsets]
  simp only [View.readAt_eq_ld, h1.read_unread, h2.read_unread,
    View.ld_unit_zero (S := S5000x64) zero_offsets, View.ld_unit_zero (S := S5000x1) zero_offsets]

/-! ## The one-hot entry

The comparison of a node's graph id word with the column number, widened from one bit to 32 and read as a
signed integer, is the real 1 where they agree and 0 where they do not. -/

/-- A truth value as a one-bit word, widened to 32 bits and read as a signed integer, is 1 or 0. -/
theorem int_of_bit (b : Bool) : ((BitVec.ofBool b).setWidth 32).toInt = if b then 1 else 0 := by
  cases b <;> decide

/-- The one-hot entry of graph id word `w` in column `γ`. -/
theorem onehot_word (w : BitVec 32) (γ : Fin 64) :
    FloatOps.sitofp (F := Ideal) .f32 ((IntOp.cmpi .eq w (BitVec.ofNat 32 γ.val)).setWidth 32) = sel w γ := by
  show ((((BitVec.ofBool (w == BitVec.ofNat 32 γ.val)).setWidth 32).toInt : ℝ) : EReal) = _
  rw [int_of_bit]
  unfold sel
  by_cases h : w = BitVec.ofNat 32 γ.val
  · simp [h]
  · simp [h]

/-! ## The update's product, as a sum over the block's rows

The product contracts the two operands' row axis: entry (γ, d) of the result pairs column γ of the left
operand with column d of the right one, row by row. -/

/-- The left operand is read, on its row axis, at the contraction position, -/
theorem lhs_axis_row (j : S64x64.Idx) (q : dot_S5000x64_S5000x64_S64x64_0_0_1_1_n_n.contr.Idx) :
    (dot_S5000x64_S5000x64_S64x64_0_0_1_1_n_n.lhsIdx j q 0).val = (q ⟨0, by decide⟩).val :=
  dot_S5000x64_S5000x64_S64x64_0_0_1_1_n_n.lhsIdx_val_of_single rfl j q
/-- and on its column axis at the result's row coordinate; -/
theorem lhs_axis_col (j : S64x64.Idx) (q : dot_S5000x64_S5000x64_S64x64_0_0_1_1_n_n.contr.Idx) :
    (dot_S5000x64_S5000x64_S64x64_0_0_1_1_n_n.lhsIdx j q 1).val = (j 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
/-- the right operand, on its row axis, at the contraction position, -/
theorem rhs_axis_row (j : S64x64.Idx) (q : dot_S5000x64_S5000x64_S64x64_0_0_1_1_n_n.contr.Idx) :
    (dot_S5000x64_S5000x64_S64x64_0_0_1_1_n_n.rhsIdx j q 0).val = (q ⟨0, by decide⟩).val :=
  dot_S5000x64_S5000x64_S64x64_0_0_1_1_n_n.rhsIdx_val_of_single rfl j q
/-- and on its column axis at the result's column coordinate. -/
theorem rhs_axis_col (j : S64x64.Idx) (q : dot_S5000x64_S5000x64_S64x64_0_0_1_1_n_n.contr.Idx) :
    (dot_S5000x64_S5000x64_S64x64_0_0_1_1_n_n.rhsIdx j q 1).val = (j 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- Entry (γ, d) of the product into the zero block is the sum over the rows r of L (r, γ) · R (r, d). -/
theorem product_rows (L R : FVec Ideal S5000x64 .f32) (γ d : Fin 64) :
    FloatOps.matmul dot_S5000x64_S5000x64_S64x64_0_0_1_1_n_n (some .fp32) L R (constant S64x64 .f32 0x00000000#32) (ix2 γ d)
      = ∑ r : Fin 5000, L (ix2 r γ) * R (ix2 r d) := by
  rw [Ideal.matmul_constant_zero_apply, ← Equiv.sum_comp (ValueIdx.contrEquiv1 dot_S5000x64_S5000x64_S64x64_0_0_1_1_n_n 5000 rfl rfl).symm]
  refine Finset.sum_congr rfl fun k _ => ?_
  have hk := ValueIdx.contrEquiv1_symm_val dot_S5000x64_S5000x64_S64x64_0_0_1_1_n_n 5000 rfl rfl k
  have el : dot_S5000x64_S5000x64_S64x64_0_0_1_1_n_n.lhsIdx (ix2 γ d) ((ValueIdx.contrEquiv1 dot_S5000x64_S5000x64_S64x64_0_0_1_1_n_n 5000 rfl rfl).symm k) = ix2 k γ := funext fun a => Fin.ext (by
    match a with
    | ⟨0, _⟩ => exact (lhs_axis_row _ _).trans hk
    | ⟨1, _⟩ => exact lhs_axis_col _ _)
  have er : dot_S5000x64_S5000x64_S64x64_0_0_1_1_n_n.rhsIdx (ix2 γ d) ((ValueIdx.contrEquiv1 dot_S5000x64_S5000x64_S64x64_0_0_1_1_n_n 5000 rfl rfl).symm k) = ix2 k d := funext fun a => Fin.ext (by
    match a with
    | ⟨0, _⟩ => exact (rhs_axis_row _ _).trans hk
    | ⟨1, _⟩ => exact rhs_axis_col _ _)
  rw [el, er]

/-! ## The left operand: the one-hot matrix of the block's graph ids -/

/-- The column number, as the lane counter spells it. -/
theorem lane_counter (h : S5000x64.Iotas .tc 32 [1]) (r : Fin 5000) (γ : Fin 64) :
    iota .tc S5000x64 32 [1] h (ix2 r γ) = BitVec.ofNat 32 γ.val :=
  iota_single_apply .tc S5000x64 32 1 h (ix2 r γ)

/-- The graph id column spread along the rows' 64 lanes: every lane of row r holds row r's id. -/
theorem id_spread (v4 : IVec S5000x1 32) (hs : S5000x1.ShapeCasts S5000x1) (hb : S5000x1.Broadcasts S5000x64)
    (r : Fin 5000) (γ : Fin 64) :
    broadcastTo S5000x64 (shapeCast S5000x1 v4 hs) hb (ix2 r γ) = v4 (ix2 r 0) := by
  rw [shapeCast_self]
  exact broadcastTo_apply v4 hb (ix2 r γ) (ix2 r 0) (fun a => by
    match a with
    | ⟨0, _⟩ => rfl
    | ⟨1, _⟩ => rfl)

/-- Entry (r, γ) of the left operand is the one-hot entry of row r's graph id in column γ. -/
theorem onehot_entry (v4 : IVec S5000x1 32) (hs : S5000x1.ShapeCasts S5000x1) (hb : S5000x1.Broadcasts S5000x64)
    (hi : S5000x64.Iotas .tc 32 [1]) (hl : 1 < 32) (r : Fin 5000) (γ : Fin 64) :
    (sitofp .f32 (extui 32 (cmpi .eq (broadcastTo S5000x64 (shapeCast S5000x1 v4 hs) hb) (iota .tc S5000x64 32 [1] hi)) hl)
      : FVec Ideal S5000x64 .f32) (ix2 r γ) = sel (v4 (ix2 r 0)) γ := by
  show FloatOps.sitofp (F := Ideal) .f32 ((IntOp.cmpi .eq (broadcastTo S5000x64 (shapeCast S5000x1 v4 hs) hb (ix2 r γ))
    (iota .tc S5000x64 32 [1] hi (ix2 r γ))).setWidth 32) = _
  rw [id_spread, lane_counter]
  exact onehot_word _ _

/-! ## The update at an entry

Entry (γ, d) of the updated block is the old entry plus the sum, over the block's rows r, of the one-hot entry
of row r's graph id in column γ times channel d of row r. -/

theorem update_entry (v4 : Vec Ideal S5000x1 .i32) (v10 : Vec Ideal S5000x64 .f32) (v13 : Vec Ideal S64x64 .f32) (γ d : Fin 64) :
    k6_pay2 (F := Ideal) v4 v10 v13 (ix2 γ d)
      = v13 (ix2 γ d) + ∑ r : Fin 5000, sel (v4 (ix2 r 0)) γ * v10 (ix2 r d) := by
  unfold k6_pay2
  dsimp only
  refine (addf_apply _ _ _).trans ?_
  refine congrArg₂ (· + ·) (congrFun (shapeCast_self v13 _) _) ?_
  refine (product_rows _ _ γ d).trans ?_
  refine Finset.sum_congr rfl fun r _ => ?_
  exact congrArg₂ (· * ·) (onehot_entry v4 _ _ _ _ r γ) (congrFun (shapeCast_self v10 _) _)

/-- The block the first point starts from is zero at every entry. -/
theorem zero_block_entry (j : S64x64.Idx) : k6_pay1 (F := Ideal) j = 0 := by
  unfold k6_pay1
  show Ideal.ofBits .f32 0x00000000#32 = 0
  exact Ideal.ofBits_zero_f32

/-! ## The blocks a grid point sees

Point t stages rows 5000 t … 5000 t + 4999 of the feature array and of the graph id column; the output's one
block does not move. -/

/-- The block-index maps of the three windows, decided once over the 20 grid points. -/
theorem block_indices : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Row r of point t's blocks is node 5000 t + r (taken below the node count, so that it names a node for every
    natural t; at the grid's 20 points nothing is cut off). -/
def node (t : Nat) (r : Fin 5000) : Fin 100000 := ⟨(5000 * t + r.val) % 100000, Nat.mod_lt _ (by norm_num)⟩

/-- The feature block of point t, read at (r, d), is the feature array at (node t r, d). -/
theorem feature_block (c : Dev nD) (t : Fin cfg6.N) (r : Fin 5000) (d : Fin 64) :
    (iblk6 V c 0 t : Vec Ideal S5000x64 .f32) (ix2 r d) = (V c main_v131 : SNxD.Idx → EReal) (ix2 (node t.val r) d) := by
  have hN : t.val < 20 := lt_of_lt_of_eq t.isLt N_6
  obtain ⟨e0, e1, -, -, -, -⟩ := block_indices t
  unfold iblk6
  rw [View.read_apply]
  show V c main_v131 _ = V c main_v131 _
  congr 1
  funext a
  apply Fin.ext
  match a with
  | ⟨0, _⟩ => show win6_0.index t (0 : Fin 2) * 5000 + 1 * r.val = (5000 * t.val + r.val) % 100000; rw [e0]; omega
  | ⟨1, _⟩ => show win6_0.index t (1 : Fin 2) * 64 + 1 * d.val = d.val; rw [e1]; omega

/-- The graph id block of point t, read at row r, is the id of node t r. -/
theorem id_block (c : Dev nD) (t : Fin cfg6.N) (r : Fin 5000) :
    (iblk6 V c 1 t : Vec Ideal S5000x1 .i32) (ix2 r 0) = (V c main_v132 : SNx1.Idx → BitVec 32) (ix2 (node t.val r) 0) := by
  have hN : t.val < 20 := lt_of_lt_of_eq t.isLt N_6
  obtain ⟨-, -, e2, e3, -, -⟩ := block_indices t
  unfold iblk6
  rw [View.read_apply]
  show V c main_v132 _ = V c main_v132 _
  congr 1
  funext a
  apply Fin.ext
  match a with
  | ⟨0, _⟩ => show win6_1.index t (0 : Fin 2) * 5000 + 1 * r.val = (5000 * t.val + r.val) % 100000; rw [e2]; omega
  | ⟨1, _⟩ => show win6_1.index t (1 : Fin 2) * 1 + 1 * 0 = 0; rw [e3]

/-! ## The running sum over the grid points -/

/-- What point t adds to entry j of the output block: the sum, over the rows r of its blocks, of the one-hot
    entry of node t r's graph id in column j₀ times channel j₁ of node t r. -/
def addend (c : Dev nD) (t : Nat) (j : S64x64.Idx) : EReal :=
  ∑ r : Fin 5000, sel ((V c main_v132 : SNx1.Idx → BitVec 32) (ix2 (node t r) 0)) (j 0)
    * (V c main_v131 : SNxD.Idx → EReal) (ix2 (node t r) (j 1))

/-- The update at point t adds the point's addend to every entry of the block it finds. -/
theorem update_at_point (c : Dev nD) (t : Fin cfg6.N) (acc : Vec Ideal S64x64 .f32) (j : S64x64.Idx) :
    k6_pay2 (F := Ideal) (iblk6 V c 1 t) (iblk6 V c 0 t) acc j = acc j + addend V c t.val j := by
  obtain ⟨γ, d, rfl⟩ : ∃ (γ d : Fin 64), j = ix2 γ d := ⟨j 0, j 1, eq_ix2 j⟩
  refine (update_entry (iblk6 V c 1 t) (iblk6 V c 0 t) acc γ d).trans ?_
  refine congrArg (acc (ix2 γ d) + ·) ?_
  refine Finset.sum_congr rfl fun r _ => ?_
  exact congrArg₂ (· * ·) (congrArg (sel · γ) (id_block V c t r)) (feature_block V c t r d)

/-- After point n the output block holds, at every entry, the sum of the addends of points 0 … n: the first
    point starts from the zero block, every later point adds to what the point before left. -/
theorem running_sum (c : Dev nD) : ∀ (n : ℕ) (h : n < cfg6.N) (j : S64x64.Idx),
    outsAt6 V c n h j = ∑ s ∈ Finset.range (n + 1), addend V c s j
  | 0, h, j => by
    rw [outsAt6_A V c ⟨0, h⟩ (Nat.zero_mod _),
      first_point c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩)
        ((hcond6_0 ⟨0, h⟩).mpr (Nat.zero_mod _)) (iblk6 V c 0 ⟨0, h⟩) (iblk6 V c 1 ⟨0, h⟩),
      update_at_point V c ⟨0, h⟩ (k6_pay1 (F := Ideal)) j, zero_block_entry, zero_add, Finset.sum_range_one]
  | n + 1, h, j => by
    have hN : n + 1 < 20 := lt_of_lt_of_eq h N_6
    have hB : ¬(⟨n + 1, h⟩ : Fin cfg6.N).val % 20 = 0 := by dsimp only; omega
    rw [outsAt6_B V c ⟨n + 1, h⟩ hB,
      later_point c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩)
        (fun hh => hB ((hcond6_0 ⟨n + 1, h⟩).mp hh)) (iblk6 V c 0 ⟨n + 1, h⟩) (iblk6 V c 1 ⟨n + 1, h⟩) _,
      update_at_point V c ⟨n + 1, h⟩ _ j]
    show outsAt6 V c n (Nat.lt_of_succ_lt h) j + addend V c (n + 1) j = _
    rw [running_sum c n (Nat.lt_of_succ_lt h) j, Finset.sum_range_succ _ (n + 1)]

/-! ## From (point, row) to the node -/

/-- The 20 × 5000 pairs (point, row) are the 100000 nodes, each once: pair (t, r) is node 5000 t + r. -/
theorem sum_over_nodes (F : Fin 100000 → EReal) :
    ∑ s ∈ Finset.range 20, ∑ r : Fin 5000, F (node s r) = ∑ n : Fin 100000, F n := by
  rw [Finset.sum_range (fun s => ∑ r : Fin 5000, F (node s r)),
    ← Fintype.sum_prod_type' (fun (s : Fin 20) (r : Fin 5000) => F (node s.val r))]
  refine Fintype.sum_equiv ((finProdFinEquiv (m := 20) (n := 5000)).trans (finCongr (by norm_num))) _ _ (fun p => ?_)
  refine congrArg F (Fin.ext ?_)
  show (5000 * p.1.val + p.2.val) % 100000 = p.2.val + 5000 * p.1.val
  have h1 := p.1.isLt
  have h2 := p.2.isLt
  omega

/-! ## The block written back, and the array -/

/-- After the last point the output block is the readout: its running sum over all 20 points, re-indexed by node. -/
theorem last_block (c : Dev nD) (t : Fin cfg6.N) (h19 : t.val = 19) :
    outsAt6 V c t.val t.isLt = poolSum (V c main_v131) (V c main_v132) := by
  funext j
  rw [running_sum V c t.val t.isLt j, h19]
  unfold poolSum addend
  exact sum_over_nodes (fun n => sel ((V c main_v132 : SNx1.Idx → BitVec 32) (ix2 n 0)) (j 0)
    * (V c main_v131 : SNxD.Idx → EReal) (ix2 n (j 1)))

/-- The output's one block is the whole [64, 64] array: what a write-back of block contents `G` writes is `G` read
    through the block, at any point. -/
theorem whole_block (t : Fin cfg6.N) (G : S64x64.Idx → EReal) :
    (cfg6.win 2).cut (grid6.coords t) G = ((cfg6.win 2).blk t).view.read (Elt Ideal) G := by
  obtain ⟨-, -, -, -, e4, e5⟩ := block_indices t
  funext j
  rw [View.read_apply]
  show G _ = G _
  congr 1
  funext a
  apply Fin.ext
  match a with
  | ⟨0, _⟩ => show (j 0).val = win6_2.index t (0 : Fin 2) * 64 + 1 * (j 0).val; rw [e4]; omega
  | ⟨1, _⟩ => show (j 1).val = win6_2.index t (1 : Fin 2) * 64 + 1 * (j 1).val; rw [e5]; omega

/-- The one write-back, after the last point, writes the readout. -/
theorem written_back (c : Dev nD) (t : Fin cfg6.N) (hf : (cfg6.win 2).flush t = true) :
    (dat6 (F := Ideal) V c).flushed 2 t
      = ((cfg6.win 2).blk t).view.read (Elt Ideal) (poolSum (V c main_v131) (V c main_v132)) := by
  have hN : t.val < 20 := lt_of_lt_of_eq t.isLt N_6
  have h19 : t.val = 19 := by have := (flush6_2 t).mp hf; omega
  show (cfg6.win 2).cut (grid6.coords t) ((dat6 V c).after 2 t) = _
  rw [after6_2, last_block V c t h19]
  exact whole_block t (poolSum (V c main_v131) (V c main_v132))

/-- Every entry of the [64, 64] array lies in the output's one block, at any point. -/
theorem in_block (t : Fin cfg6.N) (i : S64x64.Idx) : i ∈ ((cfg6.win 2).blk t).view.set := by
  obtain ⟨-, -, -, -, e4, e5⟩ := block_indices t
  have h0 : (i 0).val < 64 := (i 0).isLt
  have h1 : (i 1).val < 64 := (i 1).isLt
  show i ∈ ((View.whole main_v133).slice (win6_2.rect t)).set
  rw [View.set_slice_whole, Rect.mem_set_unit]
  intro a
  match a with
  | ⟨0, _⟩ => show win6_2.index t (0 : Fin 2) * 64 ≤ (i 0).val ∧ (i 0).val < win6_2.index t (0 : Fin 2) * 64 + 64; rw [e4]; omega
  | ⟨1, _⟩ => show win6_2.index t (1 : Fin 2) * 64 ≤ (i 1).val ∧ (i 1).val < win6_2.index t (1 : Fin 2) * 64 + 64; rw [e5]; omega

end Readout

/-- The readout region: after its 20 grid points the [64, 64] output array holds, at (γ, d), the sum over all
    nodes of (1 if the node's graph id is γ, else 0) times the node's channel d. -/
theorem pool6 (c : Dev nD) :
    (dat6 (F := Ideal) V c).arrAt 2 cfg6.N = poolSum (V c main_v131) (V c main_v132) :=
  (dat6 (F := Ideal) V c).arrAt_eq_of_cover 2 (poolSum (V c main_v131) (V c main_v132)) (Readout.written_back V c)
    fun i => ⟨⟨19, by rw [show cfg6.N = 20 from N_6]; decide⟩, (flush6_2 _).mpr rfl, Readout.in_block _ i⟩

end Cert.KernelIdeal.RegVal

end
-- ==== Proof.RefLayers.lean ====
/-
  The reference program's three graph-convolution layers and its dense transform, read entry by entry.

  Each layer of the reference is a chain of whole-array operations: the node's own transformed row is scaled by the
  squared inverse square root of its degree (a per-node value, spread along the channels), added to the neighbours'
  sum, and the bias (a per-channel value, spread along the nodes) is added; the first two layers then subtract the
  running mean, multiply by the inverse square root of the running variance plus epsilon, multiply by the scale, add
  the shift (all per-channel values, spread along the nodes), and take the maximum with zero.  At an entry (p, q) a
  value spread along the channels is read at node p and a value spread along the nodes is read at channel q, so each
  chain, read at (p, q), is the corresponding whole-array function of the specification (conv, convBnRelu) of the
  stages that feed it, with the per-node vector seen as a column and each per-channel vector seen as a row.  The dense
  transform's entry (p, q) is the sum over k of x (p, k) * W (k, q), which is matMul.
-/
import proofs.«402829_j82592221102294_2_alg».proof.Proof.Gen.ReferenceIdeal.Read
import proofs.«402829_j82592221102294_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefVal

open Cert.ReferenceIdeal Cert.ReferenceIdeal.Read Cert.Spec
open Idealize.ShloMosaic Idealize.ShloMosaic.TcCoe Idealize.ShloMosaic.ValueIdx Idealize.SL.Sem

/-- A per-node vector read as a column: entry (p, 0) of the column is entry p of the vector. -/
private theorem column_read (y : FVec Ideal S100000 .f32) (hN : S100000.ShapeCasts SNx1) (p : Fin 100000) :
    shapeCast SNx1 y hN (ix2 p 0) = y (ix1 p) :=
  shapeCast_apply y hN _ _ (by
    rw [Shape.rowMajor_val_two, Shape.rowMajor_val_one]
    show p.val = p.val * 1 + 0
    omega)

/-- A per-channel vector read as a row: entry (0, q) of the row is entry q of the vector. -/
private theorem row_read (y : FVec Ideal S64 .f32) (hD : S64.ShapeCasts S1xD) (q : Fin 64) :
    shapeCast S1xD y hD (ix2 0 q) = y (ix1 q) :=
  shapeCast_a_1a_apply y hD 0 q

/-- The last layer of the reference, entry by entry: the neighbours' sum, plus the node's own transformed row
    scaled by its squared inverse-root degree, plus the bias of the channel. -/
theorem layer3_ref (x0 : FVec Ideal S100000x64 .f32) (x1 : IVec S2x1200000 32) (x3 : FVec Ideal S64x64 .f32) (x4 : FVec Ideal S64 .f32) (x5 : FVec Ideal S64x64 .f32) (x6 : FVec Ideal S64 .f32)
    (x7 : FVec Ideal S64x64 .f32) (x8 x9 x10 x11 x12 x13 x14 x15 x16 : FVec Ideal S64 .f32) (hN : S100000.ShapeCasts SNx1) (hD : S64.ShapeCasts S1xD) :
    val_main_v167 (F := Ideal) x0 x1 x3 x4 x5 x6 x7 x8 x9 x10 x11 x12 x13 x14 x15 x16
      = conv (val_main_v159 (F := Ideal) x0 x1 x3 x4 x5 x6 x7 x9 x10 x11 x12 x13 x14 x15 x16)
          (val_main_v124 (F := Ideal) x0 x1 x3 x4 x5 x6 x7 x9 x10 x11 x12 x13 x14 x15 x16)
          (shapeCast SNx1 (val_main_v160 (F := Ideal) x1) hN) (shapeCast S1xD x8 hD) := by
  funext i
  obtain ⟨p, q, rfl⟩ : ∃ (p : Fin 100000) (q : Fin 64), i = ix2 p q := ⟨i 0, i 1, eq_ix2 i⟩
  -- the degree factor is read at the node, the bias at the channel
  have eN : idx_main_v161 (idx_main_v162 (ix2 p q)) = ix1 p :=
    funext fun a => by match a with | ⟨0, _⟩ => rfl
  have eD : idx_main_v165 (idx_main_v166 (ix2 p q)) = ix1 q :=
    funext fun a => by match a with | ⟨0, _⟩ => rfl
  rw [val_main_v167_apply, val_main_v164_apply, val_main_v163_apply, val_main_v162_apply, val_main_v161_apply,
    val_main_v166_apply, val_main_v165_apply, eN, eD]
  unfold conv
  rw [row_ix2, col_ix2, column_read, row_read]
  rfl

/-- The first layer of the reference, entry by entry: the layer's sum (neighbours, own row scaled by the squared
    inverse-root degree, bias), normalised at the running mean and variance, scaled, shifted, and rectified. -/
theorem layer1_ref (x0 : FVec Ideal S100000x64 .f32) (x1 : IVec S2x1200000 32) (x3 : FVec Ideal S64x64 .f32) (x4 x9 x10 x11 x12 : FVec Ideal S64 .f32)
    (hN : S100000.ShapeCasts SNx1) (hD : S64.ShapeCasts S1xD) :
    val_main_v63 (F := Ideal) x0 x1 x3 x4 x9 x10 x11 x12
      = convBnRelu (val_main_v39 (F := Ideal) x0 x1 x3) (val_main_v4 (F := Ideal) x0 x3) (shapeCast SNx1 (val_main_v40 (F := Ideal) x1) hN)
          (shapeCast S1xD x4 hD) (shapeCast S1xD x9 hD) (shapeCast S1xD x10 hD) (shapeCast S1xD x11 hD) (shapeCast S1xD x12 hD) := by
  funext i
  obtain ⟨p, q, rfl⟩ : ∃ (p : Fin 100000) (q : Fin 64), i = ix2 p q := ⟨i 0, i 1, eq_ix2 i⟩
  -- the degree factor is read at the node; bias, mean, variance, scale and shift at the channel
  have eN : idx_main_v41 (idx_main_v42 (ix2 p q)) = ix1 p :=
    funext fun a => by match a with | ⟨0, _⟩ => rfl
  have eb : idx_main_v45 (idx_main_v46 (ix2 p q)) = ix1 q :=
    funext fun a => by match a with | ⟨0, _⟩ => rfl
  have em : idx_main_v48 (idx_main_v49 (ix2 p q)) = ix1 q :=
    funext fun a => by match a with | ⟨0, _⟩ => rfl
  have ev : idx_main_v54 (idx_main_v55 (ix2 p q)) = ix1 q :=
    funext fun a => by match a with | ⟨0, _⟩ => rfl
  have eg : idx_main_v57 (idx_main_v58 (ix2 p q)) = ix1 q :=
    funext fun a => by match a with | ⟨0, _⟩ => rfl
  have es : idx_main_v60 (idx_main_v61 (ix2 p q)) = ix1 q :=
    funext fun a => by match a with | ⟨0, _⟩ => rfl
  rw [val_main_v63_apply, val_main_v62_apply, val_main_v59_apply, val_main_v56_apply, val_main_v50_apply,
    val_main_v47_apply, val_main_v44_apply, val_main_v43_apply,
    val_main_v42_apply, val_main_v41_apply, eN,
    val_main_v46_apply, val_main_v45_apply, eb,
    val_main_v49_apply, val_main_v48_apply, em,
    val_main_v55_apply, val_main_v54_apply, ev, val_main_v53_apply, val_main_v52_apply, val_main_v51_apply,
    val_main_cst_8_apply,
    val_main_v58_apply, val_main_v57_apply, eg,
    val_main_v61_apply, val_main_v60_apply, es,
    val_main_call0_v0_apply, val_main_call0_cst_apply]
  unfold convBnRelu conv eps
  simp only [row_ix2, col_ix2, column_read, row_read]
  rfl

/-- The second layer of the reference, entry by entry: as the first, over the first layer's output and the second
    layer's weights, bias and normalisation parameters. -/
theorem layer2_ref (x0 : FVec Ideal S100000x64 .f32) (x1 : IVec S2x1200000 32) (x3 : FVec Ideal S64x64 .f32) (x4 : FVec Ideal S64 .f32) (x5 : FVec Ideal S64x64 .f32)
    (x6 x9 x10 x11 x12 x13 x14 x15 x16 : FVec Ideal S64 .f32) (hN : S100000.ShapeCasts SNx1) (hD : S64.ShapeCasts S1xD) :
    val_main_v123 (F := Ideal) x0 x1 x3 x4 x5 x6 x9 x10 x11 x12 x13 x14 x15 x16
      = convBnRelu (val_main_v99 (F := Ideal) x0 x1 x3 x4 x5 x9 x10 x11 x12) (val_main_v64 (F := Ideal) x0 x1 x3 x4 x5 x9 x10 x11 x12)
          (shapeCast SNx1 (val_main_v100 (F := Ideal) x1) hN)
          (shapeCast S1xD x6 hD) (shapeCast S1xD x13 hD) (shapeCast S1xD x14 hD) (shapeCast S1xD x15 hD) (shapeCast S1xD x16 hD) := by
  funext i
  obtain ⟨p, q, rfl⟩ : ∃ (p : Fin 100000) (q : Fin 64), i = ix2 p q := ⟨i 0, i 1, eq_ix2 i⟩
  -- the degree factor is read at the node; bias, mean, variance, scale and shift at the channel
  have eN : idx_main_v101 (idx_main_v102 (ix2 p q)) = ix1 p :=
    funext fun a => by match a with | ⟨0, _⟩ => rfl
  have eb : idx_main_v105 (idx_main_v106 (ix2 p q)) = ix1 q :=
    funext fun a => by match a with | ⟨0, _⟩ => rfl
  have em : idx_main_v108 (idx_main_v109 (ix2 p q)) = ix1 q :=
    funext fun a => by match a with | ⟨0, _⟩ => rfl
  have ev : idx_main_v114 (idx_main_v115 (ix2 p q)) = ix1 q :=
    funext fun a => by match a with | ⟨0, _⟩ => rfl
  have eg : idx_main_v117 (idx_main_v118 (ix2 p q)) = ix1 q :=
    funext fun a => by match a with | ⟨0, _⟩ => rfl
  have es : idx_main_v120 (idx_main_v121 (ix2 p q)) = ix1 q :=
    funext fun a => by match a with | ⟨0, _⟩ => rfl
  rw [val_main_v123_apply, val_main_v122_apply, val_main_v119_apply, val_main_v116_apply, val_main_v110_apply,
    val_main_v107_apply, val_main_v104_apply, val_main_v103_apply,
    val_main_v102_apply, val_main_v101_apply, eN,
    val_main_v106_apply, val_main_v105_apply, eb,
    val_main_v109_apply, val_main_v108_apply, em,
    val_main_v115_apply, val_main_v114_apply, ev, val_main_v113_apply, val_main_v112_apply, val_main_v111_apply,
    val_main_cst_19_apply,
    val_main_v118_apply, val_main_v117_apply, eg,
    val_main_v121_apply, val_main_v120_apply, es,
    val_main_call1_v0_apply, val_main_call1_cst_apply]
  unfold convBnRelu conv eps
  simp only [row_ix2, col_ix2, column_read, row_read]
  rfl

/-- The dense transform of the reference, entry by entry: entry (p, q) is the sum over k of x (p, k) * W (k, q). -/
theorem dense_ref (x : FVec Ideal S100000x64 .f32) (W : FVec Ideal S64x64 .f32) :
    val_main_v4 (F := Ideal) x W = matMul x W := by
  funext i
  rw [val_main_v4_apply]
  unfold matMul
  refine Finset.sum_congr rfl fun k _ => ?_
  -- the left factor is read at (row, k), the right factor at (k, column)
  have el : lidx_main_v4 i k = ix2 (row i) k :=
    funext fun a => by match a with | ⟨0, _⟩ => rfl | ⟨1, _⟩ => rfl
  have er : ridx_main_v4 i k = ix2 k (col i) :=
    funext fun a => by match a with | ⟨0, _⟩ => rfl | ⟨1, _⟩ => rfl
  rw [el, er]

end Cert.ReferenceIdeal.RefVal

end
-- ==== Proof.RefPool.lean ====
/-
  The reference's per-graph readout is the per-graph sum of the last layer's rows.

  The readout is a float scatter-add: the node rows h : [100000, 64] are added into a zero [64, 64] array, row n
  going to the row named by the n-th graph id.  At the extended reals, entry (γ, d) of a scatter-add is the operand's
  entry plus the sum of the updates whose result index is (γ, d).  For this scatter's dimension numbers (one window
  axis, the channel; the start index read off the graph-id column on the row axis) update (n, c) has result index
  (g, c), where g is the n-th graph id read as a signed integer, when 0 ≤ g < 64, and none otherwise.  So the
  updates that land at (γ, d) are the (n, d) with g = γ, and the sum over the update indices collapses, channel by
  channel, to the sum over the nodes n of [the n-th graph id is γ] * h (n, d), the operand contributing zero.  A
  32-bit word read signed equals γ < 64 exactly when it is the word of γ, which is the indicator the specification
  uses.
-/
import proofs.«402829_j82592221102294_2_alg».proof.Proof.Gen.ReferenceIdeal.Read
import proofs.«402829_j82592221102294_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefVal

open Cert.ReferenceIdeal Cert.ReferenceIdeal.Read Cert.Spec
open Idealize.ShloMosaic Idealize.ShloMosaic.TcCoe Idealize.ShloMosaic.ValueIdx Idealize.SL.Sem

namespace Pool

/-- A 32-bit word read as a signed integer equals a number below 64 exactly when it is that number's word:
    a word below 2^31 reads as its unsigned value, and a word from 2^31 on reads negative. -/
theorem word_toInt_eq_iff (w : BitVec 32) (g : Nat) (hg : g < 64) :
    w.toInt = (g : Int) ↔ w = BitVec.ofNat 32 g := by
  have hw := w.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

section Record
variable [Facts₀]

/-- The readout scatter's dimension numbers: operand [64, 64], indices [100000, 1], updates [100000, 64]; the
    updates' axis 1 is the window axis, the operand's axis 0 is inserted and is the axis the start index names. -/
local notation "PD" => scatter_S64x64_S100000x1_S100000x64_1_0_0_1

/-- The operand's row axis is the one the start index names … -/
theorem mem_sdto0 : (0 : Fin S64x64.rank) ∈ (PD).scatterDimsToOperandDims := by
  show (0 : Fin 2) ∈ ([0] : List (Fin 2)); decide
/-- … and its channel axis is not. -/
theorem not_mem_sdto1 : ¬ (1 : Fin S64x64.rank) ∈ (PD).scatterDimsToOperandDims := by
  show ¬ (1 : Fin 2) ∈ ([0] : List (Fin 2)); decide
/-- The operand's row axis is inserted (no window coordinate) … -/
theorem not_mem_sKept0 : ¬ (0 : Fin S64x64.rank) ∈ (PD).sKept := by
  show ¬ (0 : Fin 2) ∈ ([1] : List (Fin 2)); decide
/-- … and its channel axis carries the window. -/
theorem mem_sKept1 : (1 : Fin S64x64.rank) ∈ (PD).sKept := by
  show (1 : Fin 2) ∈ ([1] : List (Fin 2)); decide

/-- Update index (n, c) reads its start index at row n of the graph-id column. -/
theorem siIdx_eq (n : Fin 100000) (c : Fin 64) (k : Fin (PD).scatterDimsToOperandDims.length) :
    (PD).siIdx (ix2 n c) k = ix2 n (0 : Fin 1) := by
  funext b
  match b with
  | ⟨0, _⟩ => rfl
  | ⟨1, _⟩ => exact Fin.ext (by have := k.isLt; show k.val = 0; change k.val < 1 at this; omega)

/-- On the row axis the window of update (n, c) starts at the n-th graph id, read signed. -/
theorem start0 (n : Fin 100000) (c : Fin 64) (idx : IVec S100000x1 32) :
    (PD).start (ix2 n c) idx 0 = (idx (ix2 n (0 : Fin 1))).toInt := by
  unfold ScatterDims.start
  rw [dif_pos mem_sdto0, siIdx_eq]

/-- On the channel axis it starts at 0. -/
theorem start1 (n : Fin 100000) (c : Fin 64) (idx : IVec S100000x1 32) :
    (PD).start (ix2 n c) idx 1 = 0 := by
  unfold ScatterDims.start
  rw [dif_neg not_mem_sdto1]

/-- The window coordinate of update (n, c) is 0 on the row axis … -/
theorem window0 (n : Fin 100000) (c : Fin 64) : (PD).window (ix2 n c) 0 = 0 := by
  unfold ScatterDims.window
  rw [dif_neg not_mem_sKept0]

/-- … and c on the channel axis. -/
theorem window1 (n : Fin 100000) (c : Fin 64) : (PD).window (ix2 n c) 1 = c.val := by
  unfold ScatterDims.window
  rw [dif_pos mem_sKept1]
  rfl

/-- Update (n, c) stays inside the operand exactly when the n-th graph id, read signed, is in [0, 64):
    the channel coordinate c < 64 always is. -/
theorem inside_iff (n : Fin 100000) (c : Fin 64) (idx : IVec S100000x1 32) :
    (∀ a, 0 ≤ (PD).start (ix2 n c) idx a + (PD).window (ix2 n c) a
        ∧ (PD).start (ix2 n c) idx a + (PD).window (ix2 n c) a < S64x64.size a)
      ↔ 0 ≤ (idx (ix2 n (0 : Fin 1))).toInt ∧ (idx (ix2 n (0 : Fin 1))).toInt < 64 := by
  constructor
  · intro h
    have h0 := h 0
    rw [start0, window0] at h0
    have h0' : 0 ≤ (idx (ix2 n (0 : Fin 1))).toInt + ((0 : Nat) : Int)
        ∧ (idx (ix2 n (0 : Fin 1))).toInt + ((0 : Nat) : Int) < ((64 : Nat) : Int) := h0
    omega
  · intro h a
    match a with
    | ⟨0, _⟩ =>
      show 0 ≤ (PD).start (ix2 n c) idx 0 + (PD).window (ix2 n c) 0
        ∧ (PD).start (ix2 n c) idx 0 + (PD).window (ix2 n c) 0 < ((64 : Nat) : Int)
      rw [start0, window0]; omega
    | ⟨1, _⟩ =>
      show 0 ≤ (PD).start (ix2 n c) idx 1 + (PD).window (ix2 n c) 1
        ∧ (PD).start (ix2 n c) idx 1 + (PD).window (ix2 n c) 1 < ((64 : Nat) : Int)
      rw [start1, window1]; have := c.isLt; omega

/-- Update (n, c) lands at entry (γ, d) exactly when the n-th graph id, read signed, is γ and c = d. -/
theorem resultIdx_iff (n : Fin 100000) (c : Fin 64) (idx : IVec S100000x1 32) (γ d : Fin 64) :
    (PD).resultIdx? (ix2 n c) idx = some (ix2 γ d)
      ↔ (idx (ix2 n (0 : Fin 1))).toInt = (γ.val : Int) ∧ c = d := by
  unfold ScatterDims.resultIdx?
  split
  · rename_i h
    have hin := (inside_iff n c idx).1 h
    rw [Option.some.injEq]
    constructor
    · intro hf
      have e0 : ((PD).start (ix2 n c) idx 0 + (PD).window (ix2 n c) 0).toNat = γ.val :=
        congrArg (fun f : S64x64.Idx => (f 0).val) hf
      have e1 : ((PD).start (ix2 n c) idx 1 + (PD).window (ix2 n c) 1).toNat = d.val :=
        congrArg (fun f : S64x64.Idx => (f 1).val) hf
      rw [start0, window0] at e0
      rw [start1, window1] at e1
      exact ⟨by omega, Fin.ext (by omega)⟩
    · rintro ⟨hg, rfl⟩
      funext a
      match a with
      | ⟨0, _⟩ =>
        refine Fin.ext ?_
        show ((PD).start (ix2 n c) idx 0 + (PD).window (ix2 n c) 0).toNat = γ.val
        rw [start0, window0]; omega
      | ⟨1, _⟩ =>
        refine Fin.ext ?_
        show ((PD).start (ix2 n c) idx 1 + (PD).window (ix2 n c) 1).toNat = c.val
        rw [start1, window1]; omega
  · rename_i h
    constructor
    · intro hf; exact absurd hf (by simp)
    · rintro ⟨hg, rfl⟩
      exact absurd ((inside_iff n c idx).2 ⟨by omega, by have := γ.isLt; omega⟩) h

/-- The readout scatter-add at entry (γ, d): the operand there plus the sum over the nodes n of
    [the n-th graph id is γ] * h (n, d).  The sum over the update indices is the double sum over (n, c); in row n
    only c = d can land at (γ, d), and it does exactly when the graph id is γ. -/
theorem scatter_apply (z : S64x64.Idx → EReal) (gid : IVec S100000x1 32) (h : S100000x64.Idx → EReal)
    (γ d : Fin 64) :
    Ideal.hostScatterAdd (PD) z gid h (ix2 γ d)
      = z (ix2 γ d) + ∑ n : Fin 100000, sel (gid (ix2 n (0 : Fin 1))) γ * h (ix2 n d) := by
  unfold Ideal.hostScatterAdd
  refine congrArg (z (ix2 γ d) + ·) ?_
  rw [Finset.sum_filter, sum_idx2]
  refine Finset.sum_congr rfl fun n _ => ?_
  refine (Finset.sum_congr rfl fun c _ => ?_ :
    _ = ∑ c : Fin 64, if c = d then sel (gid (ix2 n (0 : Fin 1))) γ * h (ix2 n c) else 0).trans ?_
  · by_cases hc : c = d
    · rw [if_pos hc]
      unfold sel
      by_cases hw : gid (ix2 n (0 : Fin 1)) = BitVec.ofNat 32 γ.val
      · rw [if_pos ((resultIdx_iff n c gid γ d).2 ⟨(word_toInt_eq_iff _ γ.val γ.isLt).2 hw, hc⟩), if_pos hw, one_mul]
      · rw [if_neg (fun hr => hw ((word_toInt_eq_iff _ γ.val γ.isLt).1 ((resultIdx_iff n c gid γ d).1 hr).1)),
          if_neg hw, zero_mul]
    · rw [if_neg hc, if_neg (fun hr => hc ((resultIdx_iff n c gid γ d).1 hr).2)]
  · rw [Finset.sum_ite_eq' Finset.univ d, if_pos (Finset.mem_univ d)]

end Record

end Pool

/-- The reference's readout is the per-graph sum of the last layer's rows: the scatter-add of the rows into the zero
    array, at the graph ids laid out as a column, read entry by entry. -/
theorem pool_ref (x0 : FVec Ideal S100000x64 .f32) (x1 : IVec S2x1200000 32) (x2 : IVec S100000 32) (x3 : FVec Ideal S64x64 .f32) (x4 : FVec Ideal S64 .f32) (x5 : FVec Ideal S64x64 .f32) (x6 : FVec Ideal S64 .f32)
    (x7 : FVec Ideal S64x64 .f32) (x8 x9 x10 x11 x12 x13 x14 x15 x16 : FVec Ideal S64 .f32) (hN : S100000.ShapeCasts SNx1) :
    val_main_v174 (F := Ideal) x0 x1 x2 x3 x4 x5 x6 x7 x8 x9 x10 x11 x12 x13 x14 x15 x16
      = poolSum (val_main_v167 (F := Ideal) x0 x1 x3 x4 x5 x6 x7 x8 x9 x10 x11 x12 x13 x14 x15 x16) (shapeCast SNx1 x2 hN) := by
  unfold val_main_v174
  generalize val_main_v167 (F := Ideal) x0 x1 x3 x4 x5 x6 x7 x8 x9 x10 x11 x12 x13 x14 x15 x16 = h
  funext i
  obtain ⟨γ, d, rfl⟩ : ∃ (γ : Fin 64) (d : Fin 64), i = ix2 γ d := ⟨i 0, i 1, eq_ix2 i⟩
  refine (Pool.scatter_apply (val_main_v172 (F := Ideal)) (val_main_v173 (F := Ideal) x2) h γ d).trans ?_
  -- the operand is the zero array
  rw [val_main_v172_apply, val_main_cst_32_apply, Ideal.ofBits_def, Ideal.ofBits_zero_f32, zero_add]
  unfold poolSum
  refine Finset.sum_congr rfl fun n _ => ?_
  -- the graph-id column at row n, in either layout, is the n-th graph id
  rw [val_main_v173_apply, shapeCast_apply x2 hN (ix2 n (0 : Fin 1)) (ix1 n) (by
    rw [Shape.rowMajor_val_two, Shape.rowMajor_val_one]
    show n.val = n.val * 1 + 0
    omega)]
  have hi : idx_main_v173 (ix2 n (0 : Fin 1)) = ix1 n := funext fun a => Fin.ext (by match a with | ⟨0, _⟩ => rfl)
  rw [hi]

end Cert.ReferenceIdeal.RefVal

end
-- ==== Proof.Fold.lean ====
/-
  The program's value, boundary by boundary.

  Between the launch and the return the program's buffers pass thirteen boundaries: a stretch of host operations or one
  of the seven kernel regions lies between two of them. At each boundary every buffer a later segment reads is named here
  as a stage of the reference program, a function of the argument arrays alone:

    * the edge list's two rows (source and target nodes) and the arguments themselves are written by nothing after
      they are made, so they are the same at every boundary;
    * a dense region leaves h = x W (the region's array is the product, and the reference's dot product is the same sum);
    * a host stretch between regions computes, from h and the edge list, the neighbours' normalised sum and the squared
      inverse-root degrees by the very operations the reference applies, so its results are the reference's stages with
      the same operands, the region's h in the place of the reference's;
    * a pointwise region leaves the layer's output, which the reference computes by the same arithmetic, entry by entry;
    * the readout region leaves the per-graph sums, which the reference computes by a scatter-add of the same rows;
    * the last stretch divides by the graphs' sizes, as the reference does.

  The two results at the last boundary are therefore the reference's two result stages of the arguments.
-/
import proofs.«402829_j82592221102294_2_alg».proof.Proof.Gen.KernelIdeal.Frame
import proofs.«402829_j82592221102294_2_alg».proof.Proof.Spec
import proofs.«402829_j82592221102294_2_alg».proof.Proof.RegDense0
import proofs.«402829_j82592221102294_2_alg».proof.Proof.RegDense2
import proofs.«402829_j82592221102294_2_alg».proof.Proof.RegDense4
import proofs.«402829_j82592221102294_2_alg».proof.Proof.RegBnRelu1
import proofs.«402829_j82592221102294_2_alg».proof.Proof.RegBnRelu3
import proofs.«402829_j82592221102294_2_alg».proof.Proof.RegPlain5
import proofs.«402829_j82592221102294_2_alg».proof.Proof.RegPool6
import proofs.«402829_j82592221102294_2_alg».proof.Proof.RefLayers
import proofs.«402829_j82592221102294_2_alg».proof.Proof.RefPool
import Idealize.ShloMosaic.Lib.Pipeline.Value
import Idealize.ShloMosaic.Lib.ValueIdx
import Idealize.ShloMosaic.Lib.StableHlo.Run

set_option maxRecDepth 16384

noncomputable section

namespace Cert.KernelIdeal.Fold

open Cert.KernelIdeal Cert.KernelIdeal.Gen Cert.Spec Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A host stretch does not write the buffer: one boundary down. -/
local macro "hk" : tactic => `(tactic|
  refine (StableHlo.after_of_forall_not_mem _ _ (List.forall_iff_forall_mem.mp (by
      simp only [hostOps0, hostOps1, hostOps3, hostOps5, hostOps6, hostOps7, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans ?_)
/-- A region does not stage the buffer: one boundary down (one macro per region). -/
local macro "r12" : tactic => `(tactic| refine (W12_of_ne _ _ _ _ (by decide)).trans ?_)
local macro "r10" : tactic => `(tactic| refine (W10_of_ne _ _ _ _ (by decide)).trans ?_)
local macro "r8" : tactic => `(tactic| refine (W8_of_ne _ _ _ _ (by decide)).trans ?_)
local macro "r7" : tactic => `(tactic| refine (W7_of_ne _ _ _ _ (by decide)).trans ?_)
local macro "r5" : tactic => `(tactic| refine (W5_of_ne _ _ _ _ (by decide)).trans ?_)
local macro "r4" : tactic => `(tactic| refine (W4_of_ne _ _ _ _ (by decide)).trans ?_)
local macro "r2" : tactic => `(tactic| refine (W2_of_ne _ _ _ _ (by decide)).trans ?_)

/-! ## The edge list and the first dense transform -/

/-- The source nodes: row 0 of the edge list. -/
theorem src_W1 (c : Dev nD) : W1 m ρ c (Proc.devRef .tc main_v1) = val_main_v1 (F := Ideal) (m ((c : Thread nD τ).loc main_arg1)) := by
  show StableHlo.after hostOps0 (W0 m ρ c) _ = _
  after_results
  unfold val_main_v1 val_main_v0
  rfl
/-- The target nodes: row 1 of the edge list. -/
theorem dst_W1 (c : Dev nD) : W1 m ρ c (Proc.devRef .tc main_v3) = val_main_v3 (F := Ideal) (m ((c : Thread nD τ).loc main_arg1)) := by
  show StableHlo.after hostOps0 (W0 m ρ c) _ = _
  after_results
  unfold val_main_v3 val_main_v2
  rfl
theorem arg0_W1 (c : Dev nD) : W1 m ρ c (Proc.devRef .tc main_arg0) = m ((c : Thread nD τ).loc main_arg0) := by hk; rfl
theorem arg3_W1 (c : Dev nD) : W1 m ρ c (Proc.devRef .tc main_arg3) = m ((c : Thread nD τ).loc main_arg3) := by hk; rfl

/-- Region 0 leaves h₁ = x W₁. -/
theorem h1_W2 (c : Dev nD) : W2 m ρ c (Proc.devRef .tc main_v4) = val_main_v4 (F := Ideal) (m ((c : Thread nD τ).loc main_arg0)) (m ((c : Thread nD τ).loc main_arg3)) := by
  refine (W2_arr m ρ c 2).trans ?_
  rw [RegVal.dense0 (V1 m ρ) c]
  show matMul (W1 m ρ c (Proc.devRef .tc main_arg0)) (W1 m ρ c (Proc.devRef .tc main_arg3)) = _
  rw [arg0_W1, arg3_W1]
  exact (Cert.ReferenceIdeal.RefVal.dense_ref _ _).symm
theorem src_W2 (c : Dev nD) : W2 m ρ c (Proc.devRef .tc main_v1) = val_main_v1 (F := Ideal) (m ((c : Thread nD τ).loc main_arg1)) := by r2; exact src_W1 m ρ c
theorem dst_W2 (c : Dev nD) : W2 m ρ c (Proc.devRef .tc main_v3) = val_main_v3 (F := Ideal) (m ((c : Thread nD τ).loc main_arg1)) := by r2; exact dst_W1 m ρ c
theorem arg4_W2 (c : Dev nD) : W2 m ρ c (Proc.devRef .tc main_arg4) = m ((c : Thread nD τ).loc main_arg4) := by r2; hk; rfl
theorem arg9_W2 (c : Dev nD) : W2 m ρ c (Proc.devRef .tc main_arg9) = m ((c : Thread nD τ).loc main_arg9) := by r2; hk; rfl
theorem arg10_W2 (c : Dev nD) : W2 m ρ c (Proc.devRef .tc main_arg10) = m ((c : Thread nD τ).loc main_arg10) := by r2; hk; rfl
theorem arg11_W2 (c : Dev nD) : W2 m ρ c (Proc.devRef .tc main_arg11) = m ((c : Thread nD τ).loc main_arg11) := by r2; hk; rfl
theorem arg12_W2 (c : Dev nD) : W2 m ρ c (Proc.devRef .tc main_arg12) = m ((c : Thread nD τ).loc main_arg12) := by r2; hk; rfl

/-! ## Layer 1: the host stretch between the dense transform and the pointwise region -/

/-- The neighbours' normalised sum of h1's rows. -/
theorem agg1_W3 (c : Dev nD) : W3 m ρ c (Proc.devRef .tc main_v39) = val_main_v39 (F := Ideal) (m ((c : Thread nD τ).loc main_arg0)) (m ((c : Thread nD τ).loc main_arg1)) (m ((c : Thread nD τ).loc main_arg3)) := by
  show StableHlo.after hostOps1 (W2 m ρ c) _ = _
  after_results_simp
  rw [h1_W2 m ρ c, src_W2 m ρ c, dst_W2 m ρ c]
  simp only [val_main_v39, val_main_v37, val_main_cst_7, val_main_v38, val_main_v36, val_main_v35, val_main_v27, val_main_v26, val_main_v18, val_main_v11, val_main_v10, val_main_v8, val_main_v6, val_main_cst_0, val_main_v7, val_main_v5, val_main_cst, val_main_v9, val_main_cst_1, val_main_v17, val_main_v16, val_main_v13, val_main_v12, val_main_c, val_main_v15, val_main_v14, val_main_c_2, val_main_v25, val_main_v24, val_main_v23, val_main_v20, val_main_v19, val_main_c_3, val_main_v22, val_main_v21, val_main_c_4, val_main_v34, val_main_v33, val_main_v32, val_main_v29, val_main_v28, val_main_c_5, val_main_v31, val_main_v30, val_main_c_6]
  rfl
/-- h1 itself, untouched by the stretch. -/
theorem h1_W3 (c : Dev nD) : W3 m ρ c (Proc.devRef .tc main_v4) = val_main_v4 (F := Ideal) (m ((c : Thread nD τ).loc main_arg0)) (m ((c : Thread nD τ).loc main_arg3)) := by hk; exact h1_W2 m ρ c
/-- The squared inverse-root degrees, as a column. -/
theorem dis2_1_W3 (c : Dev nD) : W3 m ρ c (Proc.devRef .tc main_v41) = shapeCast SNx1 (val_main_v40 (F := Ideal) (m ((c : Thread nD τ).loc main_arg1))) Gen.shapeCasts_S100000_S100000x1 := by
  show StableHlo.after hostOps1 (W2 m ρ c) _ = _
  after_results
  rw [dst_W2 m ρ c]
  simp only [val_main_v40, val_main_v11, val_main_v10, val_main_v8, val_main_v6, val_main_cst_0, val_main_v7, val_main_v5, val_main_cst, val_main_v9, val_main_cst_1]
  rfl
/-- The bias b₁, as a row. -/
theorem row4_W3 (c : Dev nD) : W3 m ρ c (Proc.devRef .tc main_v42) = shapeCast S1xD (m ((c : Thread nD τ).loc main_arg4)) Gen.shapeCasts_S64_S1x64 := by
  show StableHlo.after hostOps1 (W2 m ρ c) _ = _
  after_results
  rw [arg4_W2 m ρ c]
  rfl
/-- The scale g₁, as a row. -/
theorem row9_W3 (c : Dev nD) : W3 m ρ c (Proc.devRef .tc main_v43) = shapeCast S1xD (m ((c : Thread nD τ).loc main_arg9)) Gen.shapeCasts_S64_S1x64 := by
  show StableHlo.after hostOps1 (W2 m ρ c) _ = _
  after_results
  rw [arg9_W2 m ρ c]
  rfl
/-- The shift be₁, as a row. -/
theorem row10_W3 (c : Dev nD) : W3 m ρ c (Proc.devRef .tc main_v44) = shapeCast S1xD (m ((c : Thread nD τ).loc main_arg10)) Gen.shapeCasts_S64_S1x64 := by
  show StableHlo.after hostOps1 (W2 m ρ c) _ = _
  after_results
  rw [arg10_W2 m ρ c]
  rfl
/-- The running mean rm₁, as a row. -/
theorem row11_W3 (c : Dev nD) : W3 m ρ c (Proc.devRef .tc main_v45) = shapeCast S1xD (m ((c : Thread nD τ).loc main_arg11)) Gen.shapeCasts_S64_S1x64 := by
  show StableHlo.after hostOps1 (W2 m ρ c) _ = _
  after_results
  rw [arg11_W2 m ρ c]
  rfl
/-- The running variance rv₁, as a row. -/
theorem row12_W3 (c : Dev nD) : W3 m ρ c (Proc.devRef .tc main_v46) = shapeCast S1xD (m ((c : Thread nD τ).loc main_arg12)) Gen.shapeCasts_S64_S1x64 := by
  show StableHlo.after hostOps1 (W2 m ρ c) _ = _
  after_results
  rw [arg12_W2 m ρ c]
  rfl

/-- Region 1 leaves x₂, the first layer's normalised, rectified output. -/
theorem x2_W4 (c : Dev nD) : W4 m ρ c (Proc.devRef .tc main_v47) = val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) := by
  refine (W4_arr m ρ c 8).trans ?_
  rw [RegVal.bnrelu1 (V3 m ρ) c]
  show convBnRelu (W3 m ρ c (Proc.devRef .tc main_v39)) (W3 m ρ c (Proc.devRef .tc main_v4)) (W3 m ρ c (Proc.devRef .tc main_v41)) (W3 m ρ c (Proc.devRef .tc main_v42))
    (W3 m ρ c (Proc.devRef .tc main_v43)) (W3 m ρ c (Proc.devRef .tc main_v44)) (W3 m ρ c (Proc.devRef .tc main_v45)) (W3 m ρ c (Proc.devRef .tc main_v46)) = _
  rw [agg1_W3, h1_W3, dis2_1_W3, row4_W3, row9_W3, row10_W3, row11_W3, row12_W3]
  exact (Cert.ReferenceIdeal.RefVal.layer1_ref _ _ _ _ _ _ _ _ _ _).symm
theorem arg5_W4 (c : Dev nD) : W4 m ρ c (Proc.devRef .tc main_arg5) = m ((c : Thread nD τ).loc main_arg5) := by r4; hk; r2; hk; rfl

/-- Region 2 leaves h₂ = x₂ W₂. -/
theorem h2_W5 (c : Dev nD) : W5 m ρ c (Proc.devRef .tc main_v48) = val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) := by
  refine (W5_arr m ρ c 2).trans ?_
  rw [RegVal.dense2 (V4 m ρ) c]
  show matMul (W4 m ρ c (Proc.devRef .tc main_v47)) (W4 m ρ c (Proc.devRef .tc main_arg5)) = _
  rw [x2_W4, arg5_W4]
  exact (Cert.ReferenceIdeal.RefVal.dense_ref _ _).symm
theorem src_W5 (c : Dev nD) : W5 m ρ c (Proc.devRef .tc main_v1) = val_main_v1 (F := Ideal) (m ((c : Thread nD τ).loc main_arg1)) := by r5; r4; hk; exact src_W2 m ρ c
theorem dst_W5 (c : Dev nD) : W5 m ρ c (Proc.devRef .tc main_v3) = val_main_v3 (F := Ideal) (m ((c : Thread nD τ).loc main_arg1)) := by r5; r4; hk; exact dst_W2 m ρ c
theorem arg6_W5 (c : Dev nD) : W5 m ρ c (Proc.devRef .tc main_arg6) = m ((c : Thread nD τ).loc main_arg6) := by r5; r4; hk; r2; hk; rfl
theorem arg13_W5 (c : Dev nD) : W5 m ρ c (Proc.devRef .tc main_arg13) = m ((c : Thread nD τ).loc main_arg13) := by r5; r4; hk; r2; hk; rfl
theorem arg14_W5 (c : Dev nD) : W5 m ρ c (Proc.devRef .tc main_arg14) = m ((c : Thread nD τ).loc main_arg14) := by r5; r4; hk; r2; hk; rfl
theorem arg15_W5 (c : Dev nD) : W5 m ρ c (Proc.devRef .tc main_arg15) = m ((c : Thread nD τ).loc main_arg15) := by r5; r4; hk; r2; hk; rfl
theorem arg16_W5 (c : Dev nD) : W5 m ρ c (Proc.devRef .tc main_arg16) = m ((c : Thread nD τ).loc main_arg16) := by r5; r4; hk; r2; hk; rfl

/-! ## Layer 2: the host stretch between the dense transform and the pointwise region -/

/-- The neighbours' normalised sum of h2's rows. -/
theorem agg2_W6 (c : Dev nD) : W6 m ρ c (Proc.devRef .tc main_v83) = val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) := by
  show StableHlo.after hostOps3 (W5 m ρ c) _ = _
  after_results_simp
  rw [h2_W5 m ρ c, src_W5 m ρ c, dst_W5 m ρ c]
  simp only [val_main_v99, val_main_v97, val_main_cst_18, val_main_v98, val_main_v96, val_main_v95, val_main_v87, val_main_v86, val_main_v78, val_main_v71, val_main_v70, val_main_v68, val_main_v66, val_main_cst_10, val_main_v67, val_main_v65, val_main_cst_9, val_main_v69, val_main_cst_11, val_main_v77, val_main_v76, val_main_v73, val_main_v72, val_main_c_12, val_main_v75, val_main_v74, val_main_c_13, val_main_v85, val_main_v84, val_main_v83, val_main_v80, val_main_v79, val_main_c_14, val_main_v82, val_main_v81, val_main_c_15, val_main_v94, val_main_v93, val_main_v92, val_main_v89, val_main_v88, val_main_c_16, val_main_v91, val_main_v90, val_main_c_17]
  rfl
/-- h2 itself, untouched by the stretch. -/
theorem h2_W6 (c : Dev nD) : W6 m ρ c (Proc.devRef .tc main_v48) = val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) := by hk; exact h2_W5 m ρ c
/-- The squared inverse-root degrees, as a column. -/
theorem dis2_2_W6 (c : Dev nD) : W6 m ρ c (Proc.devRef .tc main_v85) = shapeCast SNx1 (val_main_v100 (F := Ideal) (m ((c : Thread nD τ).loc main_arg1))) Gen.shapeCasts_S100000_S100000x1 := by
  show StableHlo.after hostOps3 (W5 m ρ c) _ = _
  after_results
  rw [dst_W5 m ρ c]
  simp only [val_main_v100, val_main_v71, val_main_v70, val_main_v68, val_main_v66, val_main_cst_10, val_main_v67, val_main_v65, val_main_cst_9, val_main_v69, val_main_cst_11]
  rfl
/-- The bias b₂, as a row. -/
theorem row6_W6 (c : Dev nD) : W6 m ρ c (Proc.devRef .tc main_v86) = shapeCast S1xD (m ((c : Thread nD τ).loc main_arg6)) Gen.shapeCasts_S64_S1x64 := by
  show StableHlo.after hostOps3 (W5 m ρ c) _ = _
  after_results
  rw [arg6_W5 m ρ c]
  rfl
/-- The scale g₂, as a row. -/
theorem row13_W6 (c : Dev nD) : W6 m ρ c (Proc.devRef .tc main_v87) = shapeCast S1xD (m ((c : Thread nD τ).loc main_arg13)) Gen.shapeCasts_S64_S1x64 := by
  show StableHlo.after hostOps3 (W5 m ρ c) _ = _
  after_results
  rw [arg13_W5 m ρ c]
  rfl
/-- The shift be₂, as a row. -/
theorem row14_W6 (c : Dev nD) : W6 m ρ c (Proc.devRef .tc main_v88) = shapeCast S1xD (m ((c : Thread nD τ).loc main_arg14)) Gen.shapeCasts_S64_S1x64 := by
  show StableHlo.after hostOps3 (W5 m ρ c) _ = _
  after_results
  rw [arg14_W5 m ρ c]
  rfl
/-- The running mean rm₂, as a row. -/
theorem row15_W6 (c : Dev nD) : W6 m ρ c (Proc.devRef .tc main_v89) = shapeCast S1xD (m ((c : Thread nD τ).loc main_arg15)) Gen.shapeCasts_S64_S1x64 := by
  show StableHlo.after hostOps3 (W5 m ρ c) _ = _
  after_results
  rw [arg15_W5 m ρ c]
  rfl
/-- The running variance rv₂, as a row. -/
theorem row16_W6 (c : Dev nD) : W6 m ρ c (Proc.devRef .tc main_v90) = shapeCast S1xD (m ((c : Thread nD τ).loc main_arg16)) Gen.shapeCasts_S64_S1x64 := by
  show StableHlo.after hostOps3 (W5 m ρ c) _ = _
  after_results
  rw [arg16_W5 m ρ c]
  rfl

/-- Region 3 leaves x₃, the second layer's normalised, rectified output. -/
theorem x3_W7 (c : Dev nD) : W7 m ρ c (Proc.devRef .tc main_v91) = val_main_v123 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W7_arr m ρ c 8).trans ?_
  rw [RegVal.bnrelu3 (V6 m ρ) c]
  show convBnRelu (W6 m ρ c (Proc.devRef .tc main_v83)) (W6 m ρ c (Proc.devRef .tc main_v48)) (W6 m ρ c (Proc.devRef .tc main_v85)) (W6 m ρ c (Proc.devRef .tc main_v86))
    (W6 m ρ c (Proc.devRef .tc main_v87)) (W6 m ρ c (Proc.devRef .tc main_v88)) (W6 m ρ c (Proc.devRef .tc main_v89)) (W6 m ρ c (Proc.devRef .tc main_v90)) = _
  rw [agg2_W6, h2_W6, dis2_2_W6, row6_W6, row13_W6, row14_W6, row15_W6, row16_W6]
  exact (Cert.ReferenceIdeal.RefVal.layer2_ref _ _ _ _ _ _ _ _ _ _ _ _ _ _ _ _).symm
theorem arg7_W7 (c : Dev nD) : W7 m ρ c (Proc.devRef .tc main_arg7) = m ((c : Thread nD τ).loc main_arg7) := by r7; hk; r5; r4; hk; r2; hk; rfl

/-- Region 4 leaves h₃ = x₃ W₃. -/
theorem h3_W8 (c : Dev nD) : W8 m ρ c (Proc.devRef .tc main_v92) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W8_arr m ρ c 2).trans ?_
  rw [RegVal.dense4 (V7 m ρ) c]
  show matMul (W7 m ρ c (Proc.devRef .tc main_v91)) (W7 m ρ c (Proc.devRef .tc main_arg7)) = _
  rw [x3_W7, arg7_W7]
  exact (Cert.ReferenceIdeal.RefVal.dense_ref _ _).symm
theorem src_W8 (c : Dev nD) : W8 m ρ c (Proc.devRef .tc main_v1) = val_main_v1 (F := Ideal) (m ((c : Thread nD τ).loc main_arg1)) := by r8; r7; hk; exact src_W5 m ρ c
theorem dst_W8 (c : Dev nD) : W8 m ρ c (Proc.devRef .tc main_v3) = val_main_v3 (F := Ideal) (m ((c : Thread nD τ).loc main_arg1)) := by r8; r7; hk; exact dst_W5 m ρ c
theorem arg8_W8 (c : Dev nD) : W8 m ρ c (Proc.devRef .tc main_arg8) = m ((c : Thread nD τ).loc main_arg8) := by r8; r7; hk; r5; r4; hk; r2; hk; rfl

/-! ## Layer 3: the host stretch between the dense transform and the pointwise region -/

/-- The neighbours' normalised sum of h3's rows. -/
theorem agg3_W9 (c : Dev nD) : W9 m ρ c (Proc.devRef .tc main_v127) = val_main_v159 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps5 (W8 m ρ c) _ = _
  after_results_simp
  rw [h3_W8 m ρ c, src_W8 m ρ c, dst_W8 m ρ c]
  simp only [val_main_v159, val_main_v157, val_main_cst_29, val_main_v158, val_main_v156, val_main_v155, val_main_v147, val_main_v146, val_main_v138, val_main_v131, val_main_v130, val_main_v128, val_main_v126, val_main_cst_21, val_main_v127, val_main_v125, val_main_cst_20, val_main_v129, val_main_cst_22, val_main_v137, val_main_v136, val_main_v133, val_main_v132, val_main_c_23, val_main_v135, val_main_v134, val_main_c_24, val_main_v145, val_main_v144, val_main_v143, val_main_v140, val_main_v139, val_main_c_25, val_main_v142, val_main_v141, val_main_c_26, val_main_v154, val_main_v153, val_main_v152, val_main_v149, val_main_v148, val_main_c_27, val_main_v151, val_main_v150, val_main_c_28]
  rfl
/-- h3 itself, untouched by the stretch. -/
theorem h3_W9 (c : Dev nD) : W9 m ρ c (Proc.devRef .tc main_v92) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by hk; exact h3_W8 m ρ c
/-- The squared inverse-root degrees, as a column. -/
theorem dis2_3_W9 (c : Dev nD) : W9 m ρ c (Proc.devRef .tc main_v129) = shapeCast SNx1 (val_main_v160 (F := Ideal) (m ((c : Thread nD τ).loc main_arg1))) Gen.shapeCasts_S100000_S100000x1 := by
  show StableHlo.after hostOps5 (W8 m ρ c) _ = _
  after_results
  rw [dst_W8 m ρ c]
  simp only [val_main_v160, val_main_v131, val_main_v130, val_main_v128, val_main_v126, val_main_cst_21, val_main_v127, val_main_v125, val_main_cst_20, val_main_v129, val_main_cst_22]
  rfl
/-- The bias b₃, as a row. -/
theorem row8_W9 (c : Dev nD) : W9 m ρ c (Proc.devRef .tc main_v130) = shapeCast S1xD (m ((c : Thread nD τ).loc main_arg8)) Gen.shapeCasts_S64_S1x64 := by
  show StableHlo.after hostOps5 (W8 m ρ c) _ = _
  after_results
  rw [arg8_W8 m ρ c]
  rfl

/-! ## The last layer's output, the readout and the mean -/

/-- Region 5 leaves the third layer's output: the program's first result. -/
theorem out_W10 (c : Dev nD) : W10 m ρ c (Proc.devRef .tc main_v131) = val_main_v167 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W10_arr m ρ c 4).trans ?_
  rw [RegVal.plain5 (V9 m ρ) c]
  show conv (W9 m ρ c (Proc.devRef .tc main_v127)) (W9 m ρ c (Proc.devRef .tc main_v92)) (W9 m ρ c (Proc.devRef .tc main_v129)) (W9 m ρ c (Proc.devRef .tc main_v130)) = _
  rw [agg3_W9, h3_W9, dis2_3_W9, row8_W9]
  exact (Cert.ReferenceIdeal.RefVal.layer3_ref _ _ _ _ _ _ _ _ _ _ _ _ _ _ _ _ _ _).symm
theorem arg2_W10 (c : Dev nD) : W10 m ρ c (Proc.devRef .tc main_arg2) = m ((c : Thread nD τ).loc main_arg2) := by r10; hk; r8; r7; hk; r5; r4; hk; r2; hk; rfl
/-- The stretch before the readout only makes the graph ids a column. -/
theorem out_W11 (c : Dev nD) : W11 m ρ c (Proc.devRef .tc main_v131) = val_main_v167 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by hk; exact out_W10 m ρ c
theorem gid_W11 (c : Dev nD) : W11 m ρ c (Proc.devRef .tc main_v132) = shapeCast SNx1 (m ((c : Thread nD τ).loc main_arg2)) Gen.shapeCasts_S100000_S100000x1 := by
  show StableHlo.after hostOps6 (W10 m ρ c) _ = _
  after_results
  rw [arg2_W10 m ρ c]
  rfl
/-- Region 6 leaves the per-graph sums of the output's rows. -/
theorem sums_W12 (c : Dev nD) : W12 m ρ c (Proc.devRef .tc main_v133) = val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W12_arr m ρ c 2).trans ?_
  rw [RegVal.pool6 (V11 m ρ) c]
  show poolSum (W11 m ρ c (Proc.devRef .tc main_v131)) (W11 m ρ c (Proc.devRef .tc main_v132)) = _
  rw [out_W11, gid_W11]
  exact (Cert.ReferenceIdeal.RefVal.pool_ref _ _ _ _ _ _ _ _ _ _ _ _ _ _ _ _ _ _).symm
/-- The readout region only reads the output. -/
theorem out_W12 (c : Dev nD) : W12 m ρ c (Proc.devRef .tc main_v131) = val_main_v167 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ((W12_arr m ρ c 0).trans (((dat6 (V11 m ρ) c).arrAt_in 0 rfl _).trans (A_eq6 (V11 m ρ) c 0))).trans (out_W11 m ρ c)
theorem arg2_W12 (c : Dev nD) : W12 m ρ c (Proc.devRef .tc main_arg2) = m ((c : Thread nD τ).loc main_arg2) := by r12; hk; exact arg2_W10 m ρ c

/-- THE FIRST RESULT at the last boundary: the third layer's output, the reference's first result stage. -/
theorem res0 (c : Dev nD) : W13 m ρ c (Proc.devRef .tc main_v131) = val_main_v167 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by hk; exact out_W12 m ρ c
/-- THE SECOND RESULT at the last boundary: the sums divided by the graphs' sizes (at least one), the reference's second result stage. -/
theorem res1 (c : Dev nD) : W13 m ρ c (Proc.devRef .tc main_v142) = val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps7 (W12 m ρ c) _ = _
  after_results
  rw [sums_W12 m ρ c, arg2_W12 m ρ c]
  simp only [val_main_v179, val_main_v178, val_main_v177, val_main_v176, val_main_v171, val_main_v169, val_main_cst_31, val_main_v170, val_main_v168, val_main_cst_30, val_main_v175, val_main_cst_33]
  rfl

end Cert.KernelIdeal.Fold

end
-- ==== Proof.lean ====
/-
  The certificate of the graph-convolution network: three graph-convolution layers (the first two normalised and
  rectified) and a per-graph mean readout, a kernel program of seven regions against a plain reference.

  Both programs, read at the extended reals, compute the same two arrays. Layer by layer: the dense transform x W is the
  same sum of products whether a region computes it block by block or the reference as one dot product; the neighbours'
  normalised sum and the degrees are computed from it by the same host operations in both programs; the layer's tail
  (self term, bias, normalisation at running statistics, rectifier) is the same arithmetic entry by entry, the kernel
  reading its per-node and per-channel operands as a column and a row where the reference broadcasts vectors; and the
  readout's per-graph sums are, in the kernel, the one-hot selector of the graph ids times the rows, accumulated over the
  row blocks, and in the reference a scatter-add of the rows at the graph ids: both the sum over the nodes of a graph.
  No step uses more than commutativity and associativity of addition and 1·x = x, 0·x = 0, so the inputs' finiteness
  is never opened.

  The frames of the two kernel programs are the generated ones; the reference's frame is its generated run with the
  results dropped; the idealization rewrote no operation, so there is nothing to preserve.
-/
import proofs.«402829_j82592221102294_2_alg».proof.Defs
import proofs.«402829_j82592221102294_2_alg».proof.Proof.Gen.Kernel
import proofs.«402829_j82592221102294_2_alg».proof.Proof.Gen.Kernel.Skeleton
import proofs.«402829_j82592221102294_2_alg».proof.Proof.Gen.Kernel.Launch
import proofs.«402829_j82592221102294_2_alg».proof.Proof.Gen.Kernel.Points
import proofs.«402829_j82592221102294_2_alg».proof.Proof.Gen.Kernel.Frame
import proofs.«402829_j82592221102294_2_alg».proof.Proof.Gen.KernelIdeal
import proofs.«402829_j82592221102294_2_alg».proof.Proof.Gen.KernelIdeal.Skeleton
import proofs.«402829_j82592221102294_2_alg».proof.Proof.Gen.KernelIdeal.Launch
import proofs.«402829_j82592221102294_2_alg».proof.Proof.Gen.KernelIdeal.Points
import proofs.«402829_j82592221102294_2_alg».proof.Proof.Gen.KernelIdeal.Frame
import proofs.«402829_j82592221102294_2_alg».proof.Proof.Gen.ReferenceIdeal
import proofs.«402829_j82592221102294_2_alg».proof.Proof.Gen.ReferenceIdeal.Run
import proofs.«402829_j82592221102294_2_alg».proof.Proof.Gen.ReferenceIdeal.Read
import proofs.«402829_j82592221102294_2_alg».proof.Proof.Gen.Pre_finite_inputs
import proofs.«402829_j82592221102294_2_alg».proof.Proof.RunValues
import proofs.«402829_j82592221102294_2_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- At the extended reals both programs end with the last layer's output and the per-graph means at the reference's two
    result stages of the (agreeing) arguments. -/
theorem algebraic : Cert.algebraic_KernelIdeal_ReferenceIdeal := by
  intro m ρ m' ρ' _ hagree
  refine ⟨fun c => Cert.ReferenceIdeal.Read.val_main_v167 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.ReferenceIdeal.Read.val_main_v179 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Fold.res0 m ρ c), (h c).2.1.trans (Cert.KernelIdeal.Fold.res1 m ρ c), (h c).2.2⟩)
      (Cert.KernelIdeal.ValueRun.run_values m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16⟩ := hagree c
    refine ⟨(h c).1.trans ?_, (h c).2.1.trans ?_, (h c).2.2⟩
    · rw [Cert.ReferenceIdeal.Read.val_main_v167_eq, e0, e1, e3, e4, e5, e6, e7, e8, e9, e10, e11, e12, e13, e14, e15, e16]
    · rw [Cert.ReferenceIdeal.Read.val_main_v179_eq, e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
